-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S32x32 : Shape := ⟨2, ![32, 32]⟩
abbrev S32 : Shape := ⟨1, ![32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 32) : IVec S_ 1 :=
  let main_v16 : IVec S2x1600000 32 := broadcastInDim S2x1600000 ![] bcast_S_S2x1600000 main_c_5
  let main_v17 : IVec S2x1600000 1 := cmpi .slt main_arg1 main_v16
  let main_v18 : IVec S2x1600000 1 := andi main_v15 main_v17
  let main_c_6 : IVec S_ 1 := constantI S_ 1 1#1
  let main_v19 : IVec S_ 1 := (fun x v => Host.reduce IntOp.andi x v reducesTo_S2x1600000_S_d0_1 h_S_) main_v18 main_c_6
  let main_v20 : IVec S_ 1 := andi main_v13 main_v19
  main_v20

def fn {F : FTy → Type} [FloatOps F] (main_arg0 : FVec F S50000x32 .f32) (main_arg1 : IVec S2x1600000 32) (main_arg2 : FVec F S32x32 .f32) (main_arg3 : FVec F S32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg1 main_v14
  let main_c_5 : IVec S_ 32 := constantI S_ 32 50000#32
  fn_part1 (F := F) main_arg1 main_v13 main_v15 main_c_5
-- ==== Kernel.lean ====
abbrev S50000x32 : Shape := ⟨2, ![50000, 32]⟩
abbrev S2x1600000 : Shape := ⟨2, ![2, 1600000]⟩
abbrev S32x32 : Shape := ⟨2, ![32, 32]⟩
abbrev S32 : Shape := ⟨1, ![32]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S5000x32 : Shape := ⟨2, ![5000, 32]⟩
abbrev S5000x1 : Shape := ⟨2, ![5000, 1]⟩
abbrev S1 : Shape := ⟨1, ![1]⟩
abbrev S1x1 : Shape := ⟨2, ![1, 1]⟩
abbrev S1650000x32 : Shape := ⟨2, ![1650000, 32]⟩
abbrev S1x32 : Shape := ⟨2, ![1, 32]⟩
abbrev S1600000x1 : Shape := ⟨2, ![1600000, 1]⟩
abbrev S1600000x32 : Shape := ⟨2, ![1600000, 32]⟩
abbrev S400000x128 : Shape := ⟨2, ![400000, 128]⟩
abbrev S4000x128 : Shape := ⟨2, ![4000, 128]⟩

abbrev nBuf : Space → Nat
  | .hbm => 114
  | .vmem => 26
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S1650000, .f32⟩
  | .hbm, ⟨13, _⟩ => ⟨S_, .f32⟩
  | .hbm, ⟨14, _⟩ => ⟨S50000, .f32⟩
  | .hbm, ⟨15, _⟩ => ⟨S1650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S50000x32, .f32⟩
  | .hbm, ⟨23, _⟩ => ⟨S_, .i32⟩
  | .hbm, ⟨24, _⟩ => ⟨S1650000, .i32⟩
  | .hbm, ⟨25, _⟩ => ⟨S1650000, .i1⟩
  | .hbm, ⟨26, _⟩ => ⟨S_, .i32⟩
  | .hbm, ⟨27, _⟩ => ⟨S1650000, .i32⟩
  | .hbm, ⟨28, _⟩ => ⟨S1650000, .i32⟩
  | .hbm, ⟨29, _⟩ => ⟨S1650000, .i32⟩
  | .hbm, ⟨30, _⟩ => ⟨S1650000x1, .i32⟩
  | .hbm, ⟨31, _⟩ => ⟨S1, .i32⟩
  | .hbm, ⟨32, _⟩ => ⟨S_, .i32⟩
  | .hbm, ⟨33, _⟩ => ⟨S1650000x1, .i32⟩
  | .hbm, ⟨34, _⟩ => ⟨S1650000x1, .i1⟩
  | .hbm, ⟨35, _⟩ => ⟨S1x1, .i32⟩
  | .hbm, ⟨36, _⟩ => ⟨S1650000x1, .i32⟩
  | .hbm, ⟨37, _⟩ => ⟨S1650000x1, .i1⟩
  | .hbm, ⟨38, _⟩ => ⟨S1650000x1, .i1⟩
  | .hbm, ⟨39, _⟩ => ⟨S_, .i1⟩
  | .hbm, ⟨40, _⟩ => ⟨S1650000, .i1⟩
  | .hbm, ⟨41, _⟩ => ⟨S1650000x32, .f32⟩
  | .hbm, ⟨42, _⟩ => ⟨S1650000x32, .i1⟩
  | .hbm, ⟨43, _⟩ => ⟨S_, .f32⟩
  | .hbm, ⟨44, _⟩ => ⟨S1650000x32, .f32⟩
  | .hbm, ⟨45, _⟩ => ⟨S1650000x32, .f32⟩
  | .hbm, ⟨46, _⟩ => ⟨S_, .f32⟩
  | .hbm, ⟨47, _⟩ => ⟨S50000x32, .f32⟩
  | .hbm, ⟨48, _⟩ => ⟨S1650000x1, .i32⟩
  | .hbm, ⟨49, _⟩ => ⟨S50000x32, .f32⟩
  | .hbm, ⟨50, _⟩ => ⟨S1x32, .f32⟩
  | .hbm, ⟨51, _⟩ => ⟨S50000x32, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1, .i32⟩
  | .hbm, ⟨61, _⟩ => ⟨S_, .i32⟩
  | .hbm, ⟨62, _⟩ => ⟨S1600000x1, .i32⟩
  | .hbm, ⟨63, _⟩ => ⟨S1600000x1, .i1⟩
  | .hbm, ⟨64, _⟩ => ⟨S1x1, .i32⟩
  | .hbm, ⟨65, _⟩ => ⟨S1600000x1, .i32⟩
  | .hbm, ⟨66, _⟩ => ⟨S1600000x1, .i1⟩
  | .hbm, ⟨67, _⟩ => ⟨S1600000x1, .i1⟩
  | .hbm, ⟨68, _⟩ => ⟨S_, .i1⟩
  | .hbm, ⟨69, _⟩ => ⟨S1600000, .i1⟩
  | .hbm, ⟨70, _⟩ => ⟨S1600000x32, .f32⟩
  | .hbm, ⟨71, _⟩ => ⟨S1600000x32, .i1⟩
  | .hbm, ⟨72, _⟩ => ⟨S_, .f32⟩
  | .hbm, ⟨73, _⟩ => ⟨S1600000x32, .f32⟩
  | .hbm, ⟨74, _⟩ => ⟨S1600000x32, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1, .i32⟩
  | .hbm, ⟨84, _⟩ => ⟨S_, .i32⟩
  | .hbm, ⟨85, _⟩ => ⟨S1600000x1, .i32⟩
  | .hbm, ⟨86, _⟩ => ⟨S1600000x1, .i1⟩
  | .hbm, ⟨87, _⟩ => ⟨S1x1, .i32⟩
  | .hbm, ⟨88, _⟩ => ⟨S1600000x1, .i32⟩
  | .hbm, ⟨89, _⟩ => ⟨S1600000x1, .i1⟩
  | .hbm, ⟨90, _⟩ => ⟨S1600000x1, .i1⟩
  | .hbm, ⟨91, _⟩ => ⟨S_, .i1⟩
  | .hbm, ⟨92, _⟩ => ⟨S1600000, .i1⟩
  | .hbm, ⟨93, _⟩ => ⟨S1600000x32, .f32⟩
  | .hbm, ⟨94, _⟩ => ⟨S1600000x32, .i1⟩
  | .hbm, ⟨95, _⟩ => ⟨S_, .f32⟩
  | .hbm, ⟨96, _⟩ => ⟨S1600000x32, .f32⟩
  | .hbm, ⟨97, _⟩ => ⟨S1600000x32, .f32⟩
  | .hbm, ⟨98, _⟩ => ⟨S400000x128, .f32⟩
  | .hbm, ⟨99, _⟩ => ⟨S400000x128, .f32⟩
  | .hbm, ⟨100, _⟩ => ⟨S400000x128, .f32⟩
  | .hbm, ⟨101, _⟩ => ⟨S1600000x32, .f32⟩
  | .hbm, ⟨102, _⟩ => ⟨S_, .f32⟩
  | .hbm, ⟨103, _⟩ => ⟨S50000x32, .f32⟩
  | .hbm, ⟨104, _⟩ => ⟨S1600000x1, .i32⟩
  | .hbm, ⟨105, _⟩ => ⟨S50000x32, .f32⟩
  | .hbm, ⟨106, _⟩ => ⟨S_, .f32⟩
  | .hbm, ⟨107, _⟩ => ⟨S1600000, .f32⟩
  | .hbm, ⟨108, _⟩ => ⟨S_, .f32⟩
  | .hbm, ⟨109, _⟩ => ⟨S50000, .f32⟩
  | .hbm, ⟨110, _⟩ => ⟨S1600000x1, .i32⟩
  | .hbm, ⟨111, _⟩ => ⟨S50000, .f32⟩
  | .hbm, ⟨112, _⟩ => ⟨S50000x1, .f32⟩
  | .hbm, ⟨113, _⟩ => ⟨S50000x32, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S5000x1, .f32⟩
  | .local _ .vmem, ⟨4, _⟩ => ⟨S5000x1, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S5000x32, .f32⟩
  | .local _ .vmem, ⟨21, _⟩ => ⟨S5000x32, .f32⟩
  | .local _ .vmem, ⟨22, _⟩ => ⟨S5000x1, .f32⟩
  | .local _ .vmem, ⟨23, _⟩ => ⟨S5000x1, .f32⟩
  | .local _ .vmem, ⟨24, _⟩ => ⟨S5000x32, .f32⟩
  | .local _ .vmem, ⟨25, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v22 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_cst_3 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_cst_4 : Ref sig .tc := ⟨.hbm, 106, rfl⟩
abbrev main_v31 : Ref sig .tc := ⟨.hbm, 107, rfl⟩
abbrev main_cst_5 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bcast_S_S1650000x1 : S_.BroadcastsInDim S1650000x1 (![] : Fin 0 → Fin S1650000x1.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  reducesTo_S1650000x1_S1650000_d1 : S1650000x1.ReducesTo [1] S1650000
  h_S_ : 0 < S_.numel
  bcast_S1650000_S1650000x32_0 : S1650000.BroadcastsInDim S1650000x32 (![0] : Fin 1 → Fin S1650000x32.rank)
  bcast_S_S1650000x32 : S_.BroadcastsInDim S1650000x32 (![] : Fin 0 → Fin S1650000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S1600000x32_S400000x128 : S1600000x32.ShapeCasts S400000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S400000x128_S1600000x32 : S400000x128.ShapeCasts S1600000x32
  scatter_S50000_S1650000x1_S1650000_n_0_0_1_wf : ScatterDims.WF S50000 S1650000x1 S1650000 [] [0] [0] 1
  dot_S5000x32_S32x32_S5000x32_1_0_0_1_n_n_wf : DotDims.WF S5000x32 S32x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S400000x128.size a
  hwx2_1 : ∀ i : grid2.Coords, EltTy.bits .f32 = 32 ∨ (Rect.block (s := S400000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S400000x128.size a
  hwx2_2 : ∀ i : grid2.Coords, EltTy.bits .f32 = 32 ∨ (Rect.block (s := S400000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S50000x32.size a
  hwx3_2 : ∀ i : grid3.Coords, EltTy.bits .f32 = 32 ∨ (Rect.block (s := S50000x32) S5000x32.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S32x32 : Shape := ⟨2, ![32, 32]⟩
abbrev S32 : Shape := ⟨1, ![32]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x32 : Shape := ⟨2, ![1650000, 32]⟩
abbrev S1x32 : Shape := ⟨2, ![1, 32]⟩
abbrev S1600000x1 : Shape := ⟨2, ![1600000, 1]⟩
abbrev S1600000x32 : Shape := ⟨2, ![1600000, 32]⟩
abbrev S50000x1 : Shape := ⟨2, ![50000, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S50000, .i32⟩
  | .hbm, ⟨9, _⟩ => ⟨S1650000, .i32⟩
  | .hbm, ⟨10, _⟩ => ⟨S1650000, .i32⟩
  | .hbm, ⟨11, _⟩ => ⟨S_, .f32⟩
  | .hbm, ⟨12, _⟩ => ⟨S1650000, .f32⟩
  | .hbm, ⟨13, _⟩ => ⟨S_, .f32⟩
  | .hbm, ⟨14, _⟩ => ⟨S50000, .f32⟩
  | .hbm, ⟨15, _⟩ => ⟨S1650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x32, .f32⟩
  | .hbm, ⟨22, _⟩ => ⟨S_, .i32⟩
  | .hbm, ⟨23, _⟩ => ⟨S1650000, .i32⟩
  | .hbm, ⟨24, _⟩ => ⟨S1650000, .i1⟩
  | .hbm, ⟨25, _⟩ => ⟨S_, .i32⟩
  | .hbm, ⟨26, _⟩ => ⟨S1650000, .i32⟩
  | .hbm, ⟨27, _⟩ => ⟨S1650000, .i32⟩
  | .hbm, ⟨28, _⟩ => ⟨S1650000, .i32⟩
  | .hbm, ⟨29, _⟩ => ⟨S1650000x1, .i32⟩
  | .hbm, ⟨30, _⟩ => ⟨S1650000x32, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1650000x1, .f32⟩
  | .hbm, ⟨51, _⟩ => ⟨S1650000x32, .f32⟩
  | .hbm, ⟨52, _⟩ => ⟨S1650000x32, .f32⟩
  | .hbm, ⟨53, _⟩ => ⟨S_, .f32⟩
  | .hbm, ⟨54, _⟩ => ⟨S50000x32, .f32⟩
  | .hbm, ⟨55, _⟩ => ⟨S1650000x1, .i32⟩
  | .hbm, ⟨56, _⟩ => ⟨S50000x32, .f32⟩
  | .hbm, ⟨57, _⟩ => ⟨S1x32, .f32⟩
  | .hbm, ⟨58, _⟩ => ⟨S50000x32, .f32⟩
  | .hbm, ⟨59, _⟩ => ⟨S50000x32, .f32⟩
  | .hbm, ⟨60, _⟩ => ⟨S_, .f32⟩
  | .hbm, ⟨61, _⟩ => ⟨S50000x32, .f32⟩
  | .hbm, ⟨62, _⟩ => ⟨S50000x32, .f32⟩
  | .hbm, ⟨63, _⟩ => ⟨S1x1600000, .i32⟩
  | .hbm, ⟨64, _⟩ => ⟨S1600000, .i32⟩
  | .hbm, ⟨65, _⟩ => ⟨S1x1600000, .i32⟩
  | .hbm, ⟨66, _⟩ => ⟨S1600000, .i32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x32, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x32, .f32⟩
  | .hbm, ⟨85, _⟩ => ⟨S1600000x32, .f32⟩
  | .hbm, ⟨86, _⟩ => ⟨S1600000x32, .f32⟩
  | .hbm, ⟨87, _⟩ => ⟨S_, .f32⟩
  | .hbm, ⟨88, _⟩ => ⟨S1600000x32, .f32⟩
  | .hbm, ⟨89, _⟩ => ⟨S1600000x32, .f32⟩
  | .hbm, ⟨90, _⟩ => ⟨S_, .f32⟩
  | .hbm, ⟨91, _⟩ => ⟨S50000x32, .f32⟩
  | .hbm, ⟨92, _⟩ => ⟨S1600000x1, .i32⟩
  | .hbm, ⟨93, _⟩ => ⟨S50000x32, .f32⟩
  | .hbm, ⟨94, _⟩ => ⟨S_, .f32⟩
  | .hbm, ⟨95, _⟩ => ⟨S1600000, .f32⟩
  | .hbm, ⟨96, _⟩ => ⟨S_, .f32⟩
  | .hbm, ⟨97, _⟩ => ⟨S50000, .f32⟩
  | .hbm, ⟨98, _⟩ => ⟨S1600000x1, .i32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x32, .f32⟩
  | .hbm, ⟨105, _⟩ => ⟨S50000x32, .f32⟩
  | .hbm, ⟨106, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call0_cst : Ref sig .tc := ⟨.hbm, 60, rfl⟩
abbrev main_call0_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_10 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x32 : S_.BroadcastsInDim S1600000x32 (![] : Fin 0 → Fin S1600000x32.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  scatter_S50000_S1650000x1_S1650000_n_0_0_1_wf : ScatterDims.WF S50000 S1650000x1 S1650000 [] [0] [0] 1
  dot_S50000x32_S32x32_S50000x32_1_0_0_1_n_n_wf : DotDims.WF S50000x32 S32x32 S50000x32 [1] [0] [0] [1] [] []
  gather_S50000x32_S1650000x1_S1650000x32_1_0_n_n_0_1_132_wf : GatherDims.WF S50000x32 S1650000x1 S1650000x32 [1] [0] [] [0] [] 1 ![1, 32]
  gather_S50000_S1650000x1_S1650000_n_0_n_n_0_1_1_wf : GatherDims.WF S50000 S1650000x1 S1650000 [] [0] [] [0] [] 1 ![1]
  scatter_S50000x32_S1650000x1_S1650000x32_1_0_0_1_wf : ScatterDims.WF S50000x32 S1650000x1 S1650000x32 [1] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  scatter_S50000_S1600000x1_S1600000_n_0_0_1_wf : ScatterDims.WF S50000 S1600000x1 S1600000 [] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Stages.lean ====
/-
  What each of the four dense stages of the graph layer leaves in its whole output array, as one function of the whole
  arrays it reads, entry by entry on the extended reals.

  The layer works on N = 50000 nodes with D = 32 features. Stage one multiplies the node features by the weights and
  scales row i by the node's normalisation factor. Stage two scales the aggregated rows again by that factor, adds the
  bias and clips at zero. Stage three, on the edge differences laid out 128 to a row, squares them. Stage four divides
  the per-node sums by the per-node counts (at least one) and applies tanh.
-/
import Idealize.ShloMosaic.Lib.ValueIdx
import Idealize.ShloMosaic.PureOps.Ideal

noncomputable section

open scoped BigOperators

namespace Cert.Gcn

open Idealize.ShloMosaic Idealize.ShloMosaic.ValueIdx

abbrev SNxD : Shape := ⟨2, ![50000, 32]⟩
abbrev SDxD : Shape := ⟨2, ![32, 32]⟩
abbrev SNx1 : Shape := ⟨2, ![50000, 1]⟩
abbrev S1xD : Shape := ⟨2, ![1, 32]⟩
abbrev SLanes : Shape := ⟨2, ![400000, 128]⟩

/-- Stage one: entry (i, d) is the dot product of feature row i with weight column d, times node i's factor. -/
def scaledProduct (X : FVec Ideal SNxD .f32) (W : FVec Ideal SDxD .f32) (dv : FVec Ideal SNx1 .f32) :
    FVec Ideal SNxD .f32 :=
  fun j => (∑ k : Fin 32, X (ix2 (j 0 : Fin 50000) k) * W (ix2 k (j 1 : Fin 32))) * dv (ix2 (j 0 : Fin 50000) 0)

/-- Stage two: entry (i, d) is max (s (i, d) · factor i + bias d, 0). -/
def scaledBiasRelu (s : FVec Ideal SNxD .f32) (dv : FVec Ideal SNx1 .f32) (b : FVec Ideal S1xD .f32) :
    FVec Ideal SNxD .f32 :=
  fun j => max (s j * dv (ix2 (j 0 : Fin 50000) 0) + b (ix2 0 (j 1 : Fin 32))) (0 : EReal)

/-- Stage three: the square of the difference, entry by entry. -/
def squaredDiff (a b : FVec Ideal SLanes .f32) : FVec Ideal SLanes .f32 :=
  fun j => (a j - b j) * (a j - b j)

/-- Stage four: entry (i, d) is tanh (s (i, d) / max (count i, 1)). -/
def meanTanh (s : FVec Ideal SNxD .f32) (cnt : FVec Ideal SNx1 .f32) : FVec Ideal SNxD .f32 :=
  fun j => Ideal.tanh (Ideal.div (s j) (max (cnt (ix2 (j 0 : Fin 50000) 0)) (1 : EReal)))

end Cert.Gcn

end
-- ==== Proof.KernelTerms.lean ====
/-
  The host side of the kernel program, as whole-array terms of the extended reals.

  Between its four dense stages the kernel program gathers rows by node number and adds rows up by node number. A
  "take" of rows is a gather at the node numbers (a negative number first moved up by N = 50000) whose result row is
  replaced by a junk value when the moved number still falls outside 0 … N - 1. The node numbers themselves (sources,
  targets, and both with the self-loops appended) and the normalisation factors are computed by the same operations as
  in the reference program, so they are named by the reference's own stage functions.
-/
import proofs.«417841_j61658550502079_3_alg».proof.KernelIdeal
import proofs.«417841_j61658550502079_3_alg».proof.Proof.Gen.KernelIdeal
import proofs.«417841_j61658550502079_3_alg».proof.Proof.Gen.ReferenceIdeal.Read
import proofs.«417841_j61658550502079_3_alg».proof.Proof.Stages

noncomputable section

namespace Cert.Gcn.KTerms

open Idealize.ShloMosaic Cert.KernelIdeal Cert.KernelIdeal.Facts₀ Cert.Gcn
open Cert.ReferenceIdeal.Read (val_main_v1 val_main_v3 val_main_v5 val_main_v6 val_main_v13)

/-- The edge list: two rows of E = 1600000 node numbers. -/
abbrev Edges := (⟨S2x1600000, .i32⟩ : BufTy).Contents (Elt Ideal)

/-- The normalisation factors as a column [N, 1]. -/
def factorCol (ei : Edges) : FVec Ideal S50000x1 .f32 :=
  shapeCast S50000x1 (val_main_v13 (F := Ideal) ei) shapeCasts_S50000_S50000x1

/-- Rows of `x` taken at the E + N node numbers `idx`; a row whose number is out of range is junk. -/
def takeLoops (x : FVec Ideal S50000x32 .f32) (idx : IVec S1650000 32) : FVec Ideal S1650000x32 .f32 :=
  let moved : IVec S1650000 32 :=
    select (cmpi .slt idx (broadcastInDim S1650000 ![] bcast_S_S1650000 (constantI S_ 32 0#32)))
      (addi idx (broadcastInDim S1650000 ![] bcast_S_S1650000 (constantI S_ 32 50000#32))) idx
  let col : IVec S1650000x1 32 := broadcastInDim S1650000x1 ![0] bcast_S1650000_S1650000x1_0 moved
  let lo : IVec S1650000x1 1 := cmpi .sge col (broadcastInDim S1650000x1 ![] bcast_S_S1650000x1 (constantI S_ 32 0#32))
  let hi : IVec S1650000x1 1 := cmpi .sle col
    (broadcastInDim S1650000x1 ![0, 1] bcast_S1x1_S1650000x1_0_1 (broadcastInDim S1x1 ![1] bcast_S1_S1x1_1 (constantI S1 32 49999#32)))
  let ok : IVec S1650000 1 := Host.reduce IntOp.andi (andi lo hi) (constantI S_ 1 1#1) reducesTo_S1650000x1_S1650000_d1 h_S_
  select (broadcastInDim S1650000x32 ![0] bcast_S1650000_S1650000x32_0 ok)
    (Host.gather gather_S50000x32_S1650000x1_S1650000x32_1_0_n_n_0_1_132 x col)
    (broadcastInDim S1650000x32 ![] bcast_S_S1650000x32 (constant (F := Ideal) S_ .f32 0x7FC00000#32))

/-- Rows of `x` taken at E node numbers `idx`; a row whose number is out of range is junk. -/
def takeEdges (x : FVec Ideal S50000x32 .f32) (idx : IVec S1600000 32) : FVec Ideal S1600000x32 .f32 :=
  let moved : IVec S1600000 32 :=
    select (cmpi .slt idx (broadcastInDim S1600000 ![] bcast_S_S1600000 (constantI S_ 32 0#32)))
      (addi idx (broadcastInDim S1600000 ![] bcast_S_S1600000 (constantI S_ 32 50000#32))) idx
  let col : IVec S1600000x1 32 := broadcastInDim S1600000x1 ![0] bcast_S1600000_S1600000x1_0 moved
  let lo : IVec S1600000x1 1 := cmpi .sge col (broadcastInDim S1600000x1 ![] bcast_S_S1600000x1 (constantI S_ 32 0#32))
  let hi : IVec S1600000x1 1 := cmpi .sle col
    (broadcastInDim S1600000x1 ![0, 1] bcast_S1x1_S1600000x1_0_1 (broadcastInDim S1x1 ![1] bcast_S1_S1x1_1 (constantI S1 32 49999#32)))
  let ok : IVec S1600000 1 := Host.reduce IntOp.andi (andi lo hi) (constantI S_ 1 1#1) reducesTo_S1600000x1_S1600000_d1 h_S_
  select (broadcastInDim S1600000x32 ![0] bcast_S1600000_S1600000x32_0 ok)
    (Host.gather gather_S50000x32_S1600000x1_S1600000x32_1_0_n_n_0_1_132 x col)
    (broadcastInDim S1600000x32 ![] bcast_S_S1600000x32 (constant (F := Ideal) S_ .f32 0x7FC00000#32))

/-- The layer's activations as the kernel program computes them: the scaled product taken at the sources (with the
    self-loops), added up by target, then scaled, biased and clipped. -/
def activations (X : FVec Ideal S50000x32 .f32) (ei : Edges) (W : FVec Ideal S32x32 .f32) (b : FVec Ideal S32 .f32) :
    FVec Ideal S50000x32 .f32 :=
  scaledBiasRelu
    (Host.scatterAdd scatter_S50000x32_S1650000x1_S1650000x32_1_0_0_1
      (broadcastInDim S50000x32 ![] bcast_S_S50000x32 (constant (F := Ideal) S_ .f32 0x00000000#32))
      (broadcastInDim S1650000x1 ![0] bcast_S1650000_S1650000x1_0 (val_main_v5 (F := Ideal) ei))
      (takeLoops (scaledProduct X W (factorCol ei)) (val_main_v6 (F := Ideal) ei)))
    (factorCol ei)
    (shapeCast S1x32 b shapeCasts_S32_S1x32)

/-- What follows the activations `h` in the kernel program, from the sources `src` and targets `dst` of the edges: the
    squared differences of the rows taken at both ends (computed 128 to a row), added up by source, divided by the
    number of edges leaving each node (at least one), and tanh. -/
def edgeStatistic (h : FVec Ideal S50000x32 .f32) (src dst : IVec S1600000 32) : FVec Ideal S50000x32 .f32 :=
  meanTanh
    (Host.scatterAdd scatter_S50000x32_S1600000x1_S1600000x32_1_0_0_1
      (broadcastInDim S50000x32 ![] bcast_S_S50000x32 (constant (F := Ideal) S_ .f32 0x00000000#32))
      (broadcastInDim S1600000x1 ![0] bcast_S1600000_S1600000x1_0 src)
      (shapeCast S1600000x32
        (squaredDiff (shapeCast S400000x128 (takeEdges h src) shapeCasts_S1600000x32_S400000x128)
          (shapeCast S400000x128 (takeEdges h dst) shapeCasts_S1600000x32_S400000x128))
        shapeCasts_S400000x128_S1600000x32))
    (shapeCast S50000x1
      (Host.scatterAdd scatter_S50000_S1600000x1_S1600000_n_0_0_1
        (broadcastInDim S50000 ![] bcast_S_S50000 (constant (F := Ideal) S_ .f32 0x00000000#32))
        (broadcastInDim S1600000x1 ![0] bcast_S1600000_S1600000x1_0 src)
        (broadcastInDim S1600000 ![] bcast_S_S1600000 (constant (F := Ideal) S_ .f32 0x3F800000#32)))
      shapeCasts_S50000_S50000x1)

end Cert.Gcn.KTerms

end
-- ==== Proof.Region0.lean ====
/-
  Region 0 (the scaled matrix product): the whole output array after the ten grid points, each of which writes back its block of 5000 rows.
-/
import proofs.«417841_j61658550502079_3_alg».proof.Proof.Gen.KernelIdeal.Frame
import proofs.«417841_j61658550502079_3_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region0

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- Both spellings of the all-zero offset of a rank-two rectangle. -/
theorem zero_offsets : (![0, 0] : Fin 2 → Nat) = fun _ => 0 := funext fun a => by fin_cases a <;> rfl

/-! ## The block product read at an index

The contraction of the block product runs over the second axis of the left operand and the first axis of the
right operand. The four lemmas below say where an output index (row, column) and a contraction index k are sent:
the left operand is read at (row, k), the right operand at (k, column). -/

theorem lhs_row (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_contracted (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_contracted (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_column (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The product of a block of 5000 rows with the 32 by 32 weights, accumulated from zero: entry (p, q) is the sum
    over k of the left entry (p, k) times the right entry (k, q). -/
theorem blockProduct_apply (a : FVec Ideal S5000x32 .bf16) (b : FVec Ideal S32x32 .bf16) (p : Fin 5000) (q : Fin 32) :
    FloatOps.matmul dot_S5000x32_S32x32_S5000x32_1_0_0_1_n_n none a b (constant (F := Ideal) S5000x32 .f32 0x00000000#32) (ix2 p q)
      = ∑ k : Fin 32, a (ix2 p k) * b (ix2 k q) := by
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun a => Fin.ext (by
    match a with
    | ⟨0, _⟩ => exact lhs_row _ _
    | ⟨1, _⟩ => exact (lhs_contracted _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun a => Fin.ext (by
    match a with
    | ⟨0, _⟩ => exact (rhs_contracted _ _).trans hk
    | ⟨1, _⟩ => exact rhs_column _ _)
  rw [el, er]

/-- The column of 5000 factors spread along each row of 32: entry (p, q) is the factor of row p. -/
theorem spreadColumn_apply (x : FVec Ideal S5000x1 .f32) (p : Fin 5000) (q : Fin 32) :
    broadcastTo S5000x32 x broadcasts_S5000x1_S5000x32 (ix2 p q) = x (ix2 p 0) := by
  refine broadcastTo_apply x broadcasts_S5000x1_S5000x32 (ix2 p q) (ix2 p 0) fun a => ?_
  match a with
  | ⟨0, _⟩ => rfl
  | ⟨1, _⟩ => rfl

/-- What one grid point computes from its three blocks, entry by entry: the block product times the row's factor.
    Narrowing the operands to the shorter float format changes nothing on the extended reals. -/
theorem payload_apply (x0 : Vec Ideal S5000x32 .f32) (x1 : Vec Ideal S32x32 .f32) (x2 : Vec Ideal S5000x1 .f32)
    (p : Fin 5000) (q : Fin 32) :
    k0_pay1 x0 x1 x2 (ix2 p q) = (∑ k : Fin 32, x0 (ix2 p k) * x1 (ix2 k q)) * x2 (ix2 p 0) := by
  unfold k0_pay1
  refine (mulf_apply _ _ (ix2 p q)).trans ?_
  refine congrArg₂ (· * ·) ?_ ?_
  · exact (blockProduct_apply (truncf .bf16 x0 bitsLt_bf16_f32) (truncf .bf16 x1 bitsLt_bf16_f32) p q).trans
      (Finset.sum_congr rfl fun k _ => rfl)
  · refine (spreadColumn_apply _ p q).trans ?_
    rw [shapeCast_self, shapeCast_self]

/-- An entry assembled from blocks is the whole arrays' entry: if the three blocks hold, where the payload reads them,
    what the whole arrays hold in row `i 0` and column `i 1`, then the block's product-times-factor is stage one at `i`. -/
theorem entry_of_blocks (X : FVec Ideal SNxD .f32) (W : FVec Ideal SDxD .f32) (dv : FVec Ideal SNx1 .f32)
    (x0 : Vec Ideal S5000x32 .f32) (x1 : Vec Ideal S32x32 .f32) (x2 : Vec Ideal S5000x1 .f32)
    (i : SNxD.Idx) (p : Fin 5000) (q : Fin 32)
    (h0 : ∀ k : Fin 32, x0 (ix2 p k) = X (ix2 (i 0 : Fin 50000) k))
    (h1 : ∀ k : Fin 32, x1 (ix2 k q) = W (ix2 k (i 1 : Fin 32)))
    (h2 : x2 (ix2 p 0) = dv (ix2 (i 0 : Fin 50000) 0)) :
    (∑ k : Fin 32, x0 (ix2 p k) * x1 (ix2 k q)) * x2 (ix2 p 0) = scaledProduct X W dv i := by
  show _ = (∑ k : Fin 32, X (ix2 (i 0 : Fin 50000) k) * W (ix2 k (i 1 : Fin 32))) * dv (ix2 (i 0 : Fin 50000) 0)
  rw [h2]
  refine congrArg₂ (· * ·) (Finset.sum_congr rfl fun k _ => ?_) rfl
  rw [h0 k, h1 k]

/-! ## From blocks to the array -/

/-- Where the four windows' blocks sit at each grid point: the feature block, the factor block and the output block
    are all block number t along the rows (at most 9), the weights are one block, and no window moves along columns. -/
theorem block_indices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) ≤ 9
    ∧ win0_3.index t (1 : Fin 2) = 0 :=
  (by decide +kernel : ∀ t : Fin grid0.N, _)

/-- Every one of the ten row blocks of the output is some grid point's. -/
theorem block_indices_onto : ∀ (b : Fin 10), ∃ t : Fin cfg0.N, win0_3.index t = ![b.val, 0] :=
  (by decide +kernel : ∀ (b : Fin 10), ∃ t : Fin grid0.N, win0_3.index t = ![b.val, 0])

theorem block_written (c : Dev nD) (t : Fin cfg0.N) :
    (dat0 (F := Ideal) V c).flushed 3 t
      = ((cfg0.win 3).blk t).view.read (Elt Ideal) (scaledProduct (V c main_arg0) (V c main_arg2) (V c main_v14)) := by
  show (cfg0.win 3).cut (grid0.coords t) ((dat0 (F := Ideal) V c).after 3 t) = _
  rw [after0_3]
  unfold out0_3
  rw [View.canon_unit_zero zero_offsets]
  simp only [View.ld_unit_zero (S := S5000x32) zero_offsets, View.ld_unit_zero (S := S32x32) zero_offsets, View.ld_unit_zero (S := S5000x1) zero_offsets]
  obtain ⟨e0, e1, e2, e3, e4, e5, e6, e7⟩ := block_indices t
  funext j
  obtain ⟨p, q, rfl⟩ : ∃ (p : Fin 5000) (q : Fin 32), j = ix2 p q := ⟨j 0, j 1, eq_ix2 j⟩
  show k0_pay1 (iblk0 V c 0 t) (iblk0 V c 1 t) (iblk0 V c 2 t) (ix2 p q)
    = scaledProduct (V c main_arg0) (V c main_arg2) (V c main_v14) (((cfg0.win 3).blk t).view.emb (ix2 p q))
  refine (payload_apply (iblk0 V c 0 t) (iblk0 V c 1 t) (iblk0 V c 2 t) p q).trans ?_
  -- the output entry (p, q) of block t is row r = (block t) * 5000 + p of the whole array
  have hrow : ((((cfg0.win 3).blk t).view.emb (ix2 p q)) 0 : Fin 50000).val = win0_3.index t (0 : Fin 2) * 5000 + 1 * p.val := rfl
  have hcol : ((((cfg0.win 3).blk t).view.emb (ix2 p q)) 1 : Fin 32).val = win0_3.index t (1 : Fin 2) * 32 + 1 * q.val := rfl
  have hX : ∀ k : Fin 32, ((cfg0.win 0).blk t).view.emb (ix2 p k)
      = ix2 ((((cfg0.win 3).blk t).view.emb (ix2 p q)) 0 : Fin 50000) k := fun k => by
    funext a; apply Fin.ext
    match a with
    | ⟨0, _⟩ => show win0_0.index t (0 : Fin 2) * 5000 + 1 * p.val = _; rw [hrow]; omega
    | ⟨1, _⟩ => show win0_0.index t (1 : Fin 2) * 32 + 1 * k.val = k.val; omega
  have hW : ∀ k : Fin 32, ((cfg0.win 1).blk t).view.emb (ix2 k q)
      = ix2 k ((((cfg0.win 3).blk t).view.emb (ix2 p q)) 1 : Fin 32) := fun k => by
    funext a; apply Fin.ext
    match a with
    | ⟨0, _⟩ => show win0_1.index t (0 : Fin 2) * 32 + 1 * k.val = k.val; omega
    | ⟨1, _⟩ => show win0_1.index t (1 : Fin 2) * 32 + 1 * q.val = _; rw [hcol]; omega
  have hd : ((cfg0.win 2).blk t).view.emb (ix2 p 0)
      = ix2 ((((cfg0.win 3).blk t).view.emb (ix2 p q)) 0 : Fin 50000) (0 : Fin 1) := by
    funext a; apply Fin.ext
    match a with
    | ⟨0, _⟩ => show win0_2.index t (0 : Fin 2) * 5000 + 1 * p.val = _; rw [hrow]; omega
    | ⟨1, _⟩ => show win0_2.index t (1 : Fin 2) * 1 + 1 * 0 = 0; omega
  refine entry_of_blocks (V c main_arg0) (V c main_arg2) (V c main_v14) (iblk0 V c 0 t) (iblk0 V c 1 t) (iblk0 V c 2 t)
    (((cfg0.win 3).blk t).view.emb (ix2 p q)) p q (fun k => ?_) (fun k => ?_) ?_
  · exact congrArg (V c main_arg0) (hX k)
  · exact congrArg (V c main_arg2) (hW k)
  · exact congrArg (V c main_v14) hd

/-- An index of the output array lies in grid point t's block exactly when, on each axis, its coordinate is within one
    block length of the block's first coordinate. -/
theorem mem_block (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v15).slice (win0_3.rect t)).set ↔ _
  rw [View.set_slice_whole, Rect.mem_set_unit]
  exact Iff.rfl

/-- Every index of the output array is written back by some grid point: row r belongs to block r / 5000. -/
theorem every_index_covered (i : S50000x32.Idx) :
    ∃ t : Fin cfg0.N, (cfg0.win 3).flush t = true ∧ i ∈ ((cfg0.win 3).blk t).view.set := by
  have hi0 : (i 0).val < 50000 := (i 0).isLt
  have hi1 : (i 1).val < 32 := (i 1).isLt
  obtain ⟨t, ht⟩ := block_indices_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- After the region, the output array is stage one of the three arrays the region read. -/
theorem final (c : Dev nD) :
    (dat0 (F := Ideal) V c).arrAt 3 cfg0.N = scaledProduct (V c main_arg0) (V c main_arg2) (V c main_v14) := by
  exact (dat0 (F := Ideal) V c).arrAt_eq_of_cover 3 (scaledProduct (V c main_arg0) (V c main_arg2) (V c main_v14))
    (fun t _ => block_written V c t) every_index_covered

end Cert.Gcn.Region0

end
-- ==== Proof.Region1.lean ====
/-
  Region 1 (scale, bias, clip at zero): the whole output array after the ten grid points, each of which writes back its block of 5000 rows.
-/
import proofs.«417841_j61658550502079_3_alg».proof.Proof.Gen.KernelIdeal.Frame
import proofs.«417841_j61658550502079_3_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region1

open Idealize.ShloMosaic Idealize.ShloMosaic.TcCoe Idealize.ShloMosaic.ValueIdx Idealize.SL.Sem
open Cert.KernelIdeal Cert.KernelIdeal.Gen Cert.Gcn

/-- The zero offsets of a rank-two rectangle, spelt as the constant function. -/
theorem offsets_zero : (![0, 0] : Fin 2 → Nat) = fun _ => 0 := funext fun a => by fin_cases a <;> rfl

/-- A column of height a spread over b lanes: entry (p, q) is the column's entry p. -/
theorem column_spread_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The block's payload entry by entry: the scaled row entry plus the bias entry, clipped below at zero. -/
theorem payload_apply (x0 : Vec Ideal S5000x32 .f32) (x1 : Vec Ideal S5000x1 .f32) (x2 : Vec Ideal S1x32 .f32)
    (p : Fin 5000) (q : Fin 32) :
    k1_pay1 x0 x1 x2 (ix2 p q) = max (x0 (ix2 p q) * x1 (ix2 p (0 : Fin 1)) + x2 (ix2 (0 : Fin 1) q)) (0 : EReal) := by
  unfold k1_pay1
  simp only [shapeCast_self]
  show max ((x0 (ix2 p q) * broadcastTo S5000x32 x1 broadcasts_S5000x1_S5000x32 (ix2 p q))
      + broadcastTo S5000x32 x2 broadcasts_S1x32_S5000x32 (ix2 p q)) (Ideal.ofBits .f32 0x00000000#32) = _
  rw [column_spread_apply, broadcastTo_1b_ab_apply, Ideal.ofBits_zero_f32]

/-- The same at an index not yet split into its coordinates. -/
theorem payload_at (x0 : Vec Ideal S5000x32 .f32) (x1 : Vec Ideal S5000x1 .f32) (x2 : Vec Ideal S1x32 .f32)
    (j : S5000x32.Idx) :
    k1_pay1 x0 x1 x2 j
      = max (x0 j * x1 (ix2 (j 0 : Fin 5000) (0 : Fin 1)) + x2 (ix2 (0 : Fin 1) (j 1 : Fin 32))) (0 : EReal) := by
  obtain ⟨p, q, rfl⟩ : ∃ (p : Fin 5000) (q : Fin 32), j = ix2 p q := ⟨j 0, j 1, eq_ix2 j⟩
  exact payload_apply x0 x1 x2 p q

/-- Stage two's entry at i, from entries of the three arrays read at indices that name the same places. -/
theorem entry_of_reads (A : FVec Ideal SNxD .f32) (B : FVec Ideal SNx1 .f32) (C : FVec Ideal S1xD .f32)
    (i0 i : SNxD.Idx) (i1 : SNx1.Idx) (i2 : S1xD.Idx) (h0 : i0 = i)
    (h1 : i1 = ix2 (i 0 : Fin 50000) (0 : Fin 1)) (h2 : i2 = ix2 (0 : Fin 1) (i 1 : Fin 32)) :
    max (A i0 * B i1 + C i2) (0 : EReal) = scaledBiasRelu A B C i := by
  subst h0 h1 h2; rfl

variable (V : (c : Dev nD) → (b : Ref sig .tc) → Buf (Elt Ideal) ((c : Thread nD τ).loc b))

/-- Where the four windows sit at each grid point: the rows window and the factor window move with the output's
    row block, the bias window stays at its one block, and the output's row block is one of the ten. -/
theorem block_indices : ∀ t : Fin cfg1.N,
    win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Each of the ten row blocks is some grid point's output block. -/
theorem block_onto : ∀ q : Fin 10, ∃ t : Fin cfg1.N, win1_3.index t = ![q.val, 0] :=
  (by decide +kernel : ∀ q : Fin 10, ∃ t : Fin grid1.N, win1_3.index t = ![q.val, 0])

/-- What grid point t writes back is its block of the whole-array function. -/
theorem flushed_eq (c : Dev nD) (t : Fin cfg1.N) :
    (dat1 (F := Ideal) V c).flushed 3 t
      = ((cfg1.win 3).blk t).view.read (Elt Ideal) (scaledBiasRelu (V c main_v19) (V c main_v14) (V c main_v20)) := by
  show (cfg1.win 3).cut (grid1.coords t) ((dat1 V c).after 3 t) = _
  rw [after1_3]
  unfold out1_3
  rw [View.canon_unit_zero offsets_zero]
  simp only [View.ld_unit_zero (S := S5000x32) offsets_zero, View.ld_unit_zero (S := S5000x1) offsets_zero,
    View.ld_unit_zero (S := S1x32) offsets_zero]
  obtain ⟨e0, e1, e2, e3, e4, e5, e6, e7⟩ := block_indices t
  funext j
  refine (payload_at _ _ _ j).trans ?_
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * (j 1).val = win1_3.index t (1 : Fin 2) * 32 + 1 * (j 1).val; omega
  have h1 : ((cfg1.win 1).blk t).view.emb (ix2 (j 0 : Fin 5000) (0 : Fin 1))
      = ix2 ((((cfg1.win 3).blk t).view.emb j) 0 : Fin 50000) (0 : Fin 1) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (ix2 (0 : Fin 1) (j 1 : Fin 32))
      = ix2 (0 : Fin 1) ((((cfg1.win 3).blk t).view.emb j) 1 : Fin 32) := by
    funext a; apply Fin.ext
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega
  exact entry_of_reads (V c main_v19) (V c main_v14) (V c main_v20)
    (((cfg1.win 0).blk t).view.emb j) (((cfg1.win 3).blk t).view.emb j)
    (((cfg1.win 1).blk t).view.emb (ix2 (j 0 : Fin 5000) (0 : Fin 1)))
    (((cfg1.win 2).blk t).view.emb (ix2 (0 : Fin 1) (j 1 : Fin 32))) h0 h1 h2

/-- An index of the output array lies in grid point t's block exactly when each coordinate lies in the block's
    range on its axis. -/
theorem mem_block (t : Fin cfg1.N) (i : S50000x32.Idx) :
    i ∈ ((cfg1.win 3).blk t).view.set
      ↔ ∀ a : Fin 2, win1_3.index t a * S5000x32.size a ≤ (i a).val
          ∧ (i a).val < win1_3.index t a * S5000x32.size a + S5000x32.size a := by
  show i ∈ ((View.whole main_v21).slice (win1_3.rect t)).set ↔ _
  rw [View.set_slice_whole, Rect.mem_set_unit]
  exact Iff.rfl

/-- Every index of the output array is written back by some grid point: row r by the point whose block is r / 5000. -/
theorem covered (i : S50000x32.Idx) :
    ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 32 ≤ (i 1).val ∧ (i 1).val < win1_3.index t (1 : Fin 2) * 32 + 32
    omega

/-- After the region, the output array is stage two of the three arrays the region read. -/
theorem final (c : Dev nD) :
    (dat1 (F := Ideal) V c).arrAt 3 cfg1.N = scaledBiasRelu (V c main_v19) (V c main_v14) (V c main_v20) := by
  exact (dat1 (F := Ideal) V c).arrAt_eq_of_cover 3 _ (fun t _ => flushed_eq V c t) covered

end Cert.Gcn.Region1

end
-- ==== Proof.KernelChainA.lean ====
/-
  The kernel program's buffers when its second dense stage has ended (the boundary before the edge differences): the
  activations are the term `activations` of the launch contents of the four arguments, and the edges' sources and
  targets, computed before the first stage, are still in place.
-/
import proofs.«417841_j61658550502079_3_alg».proof.Proof.Gen.KernelIdeal.Frame
import proofs.«417841_j61658550502079_3_alg».proof.Proof.KernelTerms
import proofs.«417841_j61658550502079_3_alg».proof.Proof.Region0
import proofs.«417841_j61658550502079_3_alg».proof.Proof.Region1
import Idealize.ShloMosaic.Lib.StableHlo.Run
import Idealize.ShloMosaic.Lib.Pipeline.Value

set_option maxRecDepth 16384

noncomputable section

namespace Cert.Gcn.ChainA

open Idealize.ShloMosaic Idealize.ShloMosaic.TcCoe Idealize.SL.Sem Idealize.ShloMosaic.StableHlo
open Cert.KernelIdeal Cert.KernelIdeal.Gen Cert.Gcn Cert.Gcn.KTerms
open Cert.ReferenceIdeal.Read (val_main_v1 val_main_v3 val_main_v5 val_main_v6 val_main_v13)

variable (m : (ℓ : Loc nD τ sig) → Buf (Elt Ideal) ℓ) (ρ : Dev nD → PrngReg)

/-! ## Two general facts: a buffer a host stretch does not write, and values read at typed references -/

/-- A buffer that no operation of a host stretch writes holds after the stretch what it held before. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Contents moved to a typed reference's own buffer type and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

/-- At a literal reference the move between the buffer's type and the value's is the identity. -/
theorem toBuf_v16 (h1 h2 h3) (v : (⟨S1650000x32, .f32⟩ : BufTy).Contents (Elt Ideal)) :
    (StableHlo.TRef.of main_v16 h1 h2 h3 : StableHlo.TRef sig ⟨S1650000x32, .f32⟩).toBuf (Val := Elt Ideal) v = v := rfl
theorem ofBuf_v15 (h1 h2 h3) (v : (main_v15 : Ref sig .tc).ty.Contents (Elt Ideal)) :
    (StableHlo.TRef.of main_v15 h1 h2 h3 : StableHlo.TRef sig ⟨S50000x32, .f32⟩).ofBuf v = v := rfl
theorem ofBuf_v6 (h1 h2 h3) (v : (main_v6 : Ref sig .tc).ty.Contents (Elt Ideal)) :
    (StableHlo.TRef.of main_v6 h1 h2 h3 : StableHlo.TRef sig ⟨S1650000, .i32⟩).ofBuf v = v := rfl

/-! ## What each host stretch computes, over any contents it starts from -/

/-- The stretch between the first two stages leaves in the taken rows the operations' composed term, every value read at
    its own buffer type: the pairs of moves between types cancel, and what is left is the "take" term as written. -/
theorem stretch_v16_typed (V : Valuation τ sig (Elt Ideal)) :
    StableHlo.after hostOps1 V (Proc.devRef .tc main_v16)
      = (StableHlo.TRef.of main_v16 : StableHlo.TRef sig ⟨S1650000x32, .f32⟩).toBuf
          (takeLoops ((StableHlo.TRef.of main_v15 : StableHlo.TRef sig ⟨S50000x32, .f32⟩).ofBuf (V (Proc.devRef .tc main_v15)))
            ((StableHlo.TRef.of main_v6 : StableHlo.TRef sig ⟨S1650000, .i32⟩).ofBuf (V (Proc.devRef .tc main_v6)))) := by
  after_results_simp
  simp only [ofBuf_toBuf]
  unfold takeLoops
  with_reducible rfl

/-- The taken rows are the "take" of the first stage's output at the sources with the self-loops. -/
theorem stretch_v16 (V : Valuation τ sig (Elt Ideal)) :
    StableHlo.after hostOps1 V (Proc.devRef .tc main_v16)
      = takeLoops (V (Proc.devRef .tc main_v15)) (V (Proc.devRef .tc main_v6)) :=
  (stretch_v16_typed V).trans ((toBuf_v16 _ _ _ _).trans
    (congrArg₂ takeLoops (ofBuf_v15 _ _ _ (V (Proc.devRef .tc main_v15))) (ofBuf_v6 _ _ _ (V (Proc.devRef .tc main_v6)))))

/-- The stretch before the second stage leaves in the aggregated rows the taken rows added up by target. -/
theorem stretch_v19 (V : Valuation τ sig (Elt Ideal)) :
    StableHlo.after hostOps1_1 V (Proc.devRef .tc main_v19)
      = Host.scatterAdd scatter_S50000x32_S1650000x1_S1650000x32_1_0_0_1
          (broadcastInDim S50000x32 ![] bcast_S_S50000x32 (constant (F := Ideal) S_ .f32 0x00000000#32))
          (broadcastInDim S1650000x1 ![0] bcast_S1650000_S1650000x1_0 (V (Proc.devRef .tc main_v5)))
          (V (Proc.devRef .tc main_v16)) := by
  after_results <;> rfl

/-- … and in the bias row the bias, reshaped. -/
theorem stretch_v20 (V : Valuation τ sig (Elt Ideal)) :
    StableHlo.after hostOps1_1 V (Proc.devRef .tc main_v20)
      = shapeCast S1x32 (V (Proc.devRef .tc main_arg3)) shapeCasts_S32_S1x32 := by
  after_results <;> rfl

/-! ## The first host stretch: the node numbers and the factors are the reference's, the arguments are as launched -/

theorem W1_v1 (c : Dev nD) :
    W1 m ρ c (Proc.devRef .tc main_v1) = val_main_v1 (F := Ideal) (m ((c : Thread nD τ).loc main_arg1)) := by
  show StableHlo.after hostOps0 (W0 m ρ c) (Proc.devRef .tc main_v1) = _
  after_results <;> rfl

theorem W1_v3 (c : Dev nD) :
    W1 m ρ c (Proc.devRef .tc main_v3) = val_main_v3 (F := Ideal) (m ((c : Thread nD τ).loc main_arg1)) := by
  show StableHlo.after hostOps0 (W0 m ρ c) (Proc.devRef .tc main_v3) = _
  after_results <;> rfl

theorem W1_v5 (c : Dev nD) :
    W1 m ρ c (Proc.devRef .tc main_v5) = val_main_v5 (F := Ideal) (m ((c : Thread nD τ).loc main_arg1)) := by
  show StableHlo.after hostOps0 (W0 m ρ c) (Proc.devRef .tc main_v5) = _
  after_results <;> rfl

theorem W1_v6 (c : Dev nD) :
    W1 m ρ c (Proc.devRef .tc main_v6) = val_main_v6 (F := Ideal) (m ((c : Thread nD τ).loc main_arg1)) := by
  show StableHlo.after hostOps0 (W0 m ρ c) (Proc.devRef .tc main_v6) = _
  after_results <;> rfl

theorem W1_v14 (c : Dev nD) : W1 m ρ c (Proc.devRef .tc main_v14) = factorCol (m ((c : Thread nD τ).loc main_arg1)) := by
  show StableHlo.after hostOps0 (W0 m ρ c) (Proc.devRef .tc main_v14) = _
  after_results <;> rfl

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0

theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0

theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0

/-! ## The first stage's exit: its output is the scaled product, its inputs and every other buffer are as entered -/

theorem W2_v15 (c : Dev nD) :
    W2 m ρ c (Proc.devRef .tc main_v15)
      = scaledProduct (m ((c : Thread nD τ).loc main_arg0)) (m ((c : Thread nD τ).loc main_arg2))
          (factorCol (m ((c : Thread nD τ).loc main_arg1))) := by
  refine (W2_arr m ρ c 3).trans ((Cert.Gcn.Region0.final (V1 m ρ) c).trans ?_)
  show scaledProduct (W1 m ρ c (Proc.devRef .tc main_arg0)) (W1 m ρ c (Proc.devRef .tc main_arg2))
    (W1 m ρ c (Proc.devRef .tc main_v14)) = _
  rw [W1_arg0, W1_arg2, W1_v14]

theorem W2_v14 (c : Dev nD) : W2 m ρ c (Proc.devRef .tc main_v14) = factorCol (m ((c : Thread nD τ).loc main_arg1)) :=
  ((W2_arr m ρ c 2).trans (((dat0 (V1 m ρ) c).arrAt_in 2 rfl _).trans (A_eq0 (V1 m ρ) c 2))).trans (W1_v14 m ρ c)

theorem W2_v1 (c : Dev nD) :
    W2 m ρ c (Proc.devRef .tc main_v1) = val_main_v1 (F := Ideal) (m ((c : Thread nD τ).loc main_arg1)) :=
  (W2_of_ne m ρ c main_v1 (by decide)).trans (W1_v1 m ρ c)

theorem W2_v3 (c : Dev nD) :
    W2 m ρ c (Proc.devRef .tc main_v3) = val_main_v3 (F := Ideal) (m ((c : Thread nD τ).loc main_arg1)) :=
  (W2_of_ne m ρ c main_v3 (by decide)).trans (W1_v3 m ρ c)

theorem W2_v5 (c : Dev nD) :
    W2 m ρ c (Proc.devRef .tc main_v5) = val_main_v5 (F := Ideal) (m ((c : Thread nD τ).loc main_arg1)) :=
  (W2_of_ne m ρ c main_v5 (by decide)).trans (W1_v5 m ρ c)

theorem W2_v6 (c : Dev nD) :
    W2 m ρ c (Proc.devRef .tc main_v6) = val_main_v6 (F := Ideal) (m ((c : Thread nD τ).loc main_arg1)) :=
  (W2_of_ne m ρ c main_v6 (by decide)).trans (W1_v6 m ρ c)

theorem W2_arg3 (c : Dev nD) : W2 m ρ c (Proc.devRef .tc main_arg3) = m ((c : Thread nD τ).loc main_arg3) :=
  (W2_of_ne m ρ c main_arg3 (by decide)).trans (W1_arg3 m ρ c)

/-! ## After the "take" stretch -/

theorem W3_v16 (c : Dev nD) :
    W3 m ρ c (Proc.devRef .tc main_v16)
      = takeLoops (scaledProduct (m ((c : Thread nD τ).loc main_arg0)) (m ((c : Thread nD τ).loc main_arg2))
            (factorCol (m ((c : Thread nD τ).loc main_arg1))))
          (val_main_v6 (F := Ideal) (m ((c : Thread nD τ).loc main_arg1))) := by
  refine (stretch_v16 (W2 m ρ c)).trans ?_
  rw [W2_v15, W2_v6]

theorem W3_v1 (c : Dev nD) :
    W3 m ρ c (Proc.devRef .tc main_v1) = val_main_v1 (F := Ideal) (m ((c : Thread nD τ).loc main_arg1)) :=
  (show W3 m ρ c (Proc.devRef .tc main_v1) = W2 m ρ c (Proc.devRef .tc main_v1) by host_keeps hostOps1).trans (W2_v1 m ρ c)

theorem W3_v3 (c : Dev nD) :
    W3 m ρ c (Proc.devRef .tc main_v3) = val_main_v3 (F := Ideal) (m ((c : Thread nD τ).loc main_arg1)) :=
  (show W3 m ρ c (Proc.devRef .tc main_v3) = W2 m ρ c (Proc.devRef .tc main_v3) by host_keeps hostOps1).trans (W2_v3 m ρ c)

theorem W3_v5 (c : Dev nD) :
    W3 m ρ c (Proc.devRef .tc main_v5) = val_main_v5 (F := Ideal) (m ((c : Thread nD τ).loc main_arg1)) :=
  (show W3 m ρ c (Proc.devRef .tc main_v5) = W2 m ρ c (Proc.devRef .tc main_v5) by host_keeps hostOps1).trans (W2_v5 m ρ c)

theorem W3_v14 (c : Dev nD) : W3 m ρ c (Proc.devRef .tc main_v14) = factorCol (m ((c : Thread nD τ).loc main_arg1)) :=
  (show W3 m ρ c (Proc.devRef .tc main_v14) = W2 m ρ c (Proc.devRef .tc main_v14) by host_keeps hostOps1).trans (W2_v14 m ρ c)

theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by host_keeps hostOps1).trans (W2_arg3 m ρ c)

/-! ## The second stage's entry -/

theorem W4_v1 (c : Dev nD) :
    W4 m ρ c (Proc.devRef .tc main_v1) = val_main_v1 (F := Ideal) (m ((c : Thread nD τ).loc main_arg1)) :=
  (show W4 m ρ c (Proc.devRef .tc main_v1) = W3 m ρ c (Proc.devRef .tc main_v1) by host_keeps hostOps1_1).trans (W3_v1 m ρ c)

theorem W4_v3 (c : Dev nD) :
    W4 m ρ c (Proc.devRef .tc main_v3) = val_main_v3 (F := Ideal) (m ((c : Thread nD τ).loc main_arg1)) :=
  (show W4 m ρ c (Proc.devRef .tc main_v3) = W3 m ρ c (Proc.devRef .tc main_v3) by host_keeps hostOps1_1).trans (W3_v3 m ρ c)

theorem W4_v14 (c : Dev nD) : W4 m ρ c (Proc.devRef .tc main_v14) = factorCol (m ((c : Thread nD τ).loc main_arg1)) :=
  (show W4 m ρ c (Proc.devRef .tc main_v14) = W3 m ρ c (Proc.devRef .tc main_v14) by host_keeps hostOps1_1).trans (W3_v14 m ρ c)

theorem W4_v19 (c : Dev nD) :
    W4 m ρ c (Proc.devRef .tc main_v19)
      = Host.scatterAdd scatter_S50000x32_S1650000x1_S1650000x32_1_0_0_1
          (broadcastInDim S50000x32 ![] bcast_S_S50000x32 (constant (F := Ideal) S_ .f32 0x00000000#32))
          (broadcastInDim S1650000x1 ![0] bcast_S1650000_S1650000x1_0 (val_main_v5 (F := Ideal) (m ((c : Thread nD τ).loc main_arg1))))
          (takeLoops (scaledProduct (m ((c : Thread nD τ).loc main_arg0)) (m ((c : Thread nD τ).loc main_arg2))
              (factorCol (m ((c : Thread nD τ).loc main_arg1))))
            (val_main_v6 (F := Ideal) (m ((c : Thread nD τ).loc main_arg1)))) := by
  refine (stretch_v19 (W3 m ρ c)).trans ?_
  rw [W3_v5, W3_v16]

theorem W4_v20 (c : Dev nD) :
    W4 m ρ c (Proc.devRef .tc main_v20) = shapeCast S1x32 (m ((c : Thread nD τ).loc main_arg3)) shapeCasts_S32_S1x32 := by
  refine (stretch_v20 (W3 m ρ c)).trans ?_
  rw [W3_arg3]

/-! ## The second stage's exit -/

/-- The sources of the edges, written before the first stage, are untouched at the second stage's exit. -/
theorem src_kept (c : Dev nD) :
    W5 m ρ c (Proc.devRef .tc main_v1) = val_main_v1 (F := Ideal) (m ((c : Thread nD τ).loc main_arg1)) :=
  (W5_of_ne m ρ c main_v1 (by decide)).trans (W4_v1 m ρ c)

/-- The targets of the edges likewise. -/
theorem dst_kept (c : Dev nD) :
    W5 m ρ c (Proc.devRef .tc main_v3) = val_main_v3 (F := Ideal) (m ((c : Thread nD τ).loc main_arg1)) :=
  (W5_of_ne m ρ c main_v3 (by decide)).trans (W4_v3 m ρ c)

/-- The second stage's output array is the activations of the four arguments. -/
theorem activations_eq (c : Dev nD) :
    W5 m ρ c (Proc.devRef .tc main_v21)
      = activations (m ((c : Thread nD τ).loc main_arg0)) (m ((c : Thread nD τ).loc main_arg1))
          (m ((c : Thread nD τ).loc main_arg2)) (m ((c : Thread nD τ).loc main_arg3)) := by
  refine (W5_arr m ρ c 3).trans ((Cert.Gcn.Region1.final (V4 m ρ) c).trans ?_)
  show scaledBiasRelu (W4 m ρ c (Proc.devRef .tc main_v19)) (W4 m ρ c (Proc.devRef .tc main_v14))
    (W4 m ρ c (Proc.devRef .tc main_v20)) = _
  rw [W4_v19, W4_v14, W4_v20]
  rfl

end Cert.Gcn.ChainA

end
-- ==== Proof.Region2.lean ====
/-
  Region 2 (squared differences, 128 to a row): the whole output array after the hundred grid points, each of which writes back its block of 4000 rows.
-/
import proofs.«417841_j61658550502079_3_alg».proof.Proof.Gen.KernelIdeal.Frame
import proofs.«417841_j61658550502079_3_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region2

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- The zero offset pair, spelt as a vector literal, is the constant-zero function. -/
theorem zero_offsets : (![0, 0] : Fin 2 → Nat) = fun _ => 0 := funext fun a => by fin_cases a <;> rfl

/-- The body's stored value at one index of a block: the two loaded blocks are reshaped onto their own shape
    (which changes nothing), subtracted, and the difference multiplied by itself. -/
theorem payload_apply (x0 x1 : Vec Ideal S4000x128 .f32) (j : S4000x128.Idx) :
    k2_pay1 x0 x1 j = (x0 j - x1 j) * (x0 j - x1 j) := by
  unfold k2_pay1
  simp only [shapeCast_self]
  rfl

/-- At grid point t all three windows sit on block (t, 0) of their arrays. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The squared difference of two whole arrays at an index, when both are read at positions equal to it. -/
theorem squaredDiff_at (A B : FVec Ideal SLanes .f32) (i0 i1 i2 : SLanes.Idx) (h0 : i0 = i2) (h1 : i1 = i2) :
    (A i0 - B i1) * (A i0 - B i1) = squaredDiff A B i2 := by
  subst h0 h1; rfl

/-- What grid point t writes back is block t of the squared difference of the two whole input arrays: the one
    store fills the staging buffer with the payload of the two input blocks, and each input block sits over the same
    4000 rows as the output block, so row r of the block is row t * 4000 + r of every array. -/
theorem written_block (c : Dev nD) (t : Fin cfg2.N) :
    (dat2 (F := Ideal) V c).flushed 2 t
      = ((cfg2.win 2).blk t).view.read (Elt Ideal) (squaredDiff (V c main_v24) (V c main_v25)) := by
  show (cfg2.win 2).cut (grid2.coords t) ((dat2 V c).after 2 t) = _
  rw [after2_2]
  unfold out2_2
  rw [View.canon_unit_zero zero_offsets]
  simp only [View.ld_unit_zero (S := S4000x128) zero_offsets]
  obtain ⟨a0, a1, b0, b1, o0, o1⟩ := block_index t
  funext j
  show k2_pay1 (iblk2 V c 0 t) (iblk2 V c 1 t) j
    = squaredDiff (V c main_v24) (V c main_v25) (((cfg2.win 2).blk t).view.emb j)
  refine (payload_apply _ _ j).trans ?_
  -- position j of either input block is the array position that position j of the output block has
  have h0 : ((cfg2.win 0).blk t).view.emb j = ((cfg2.win 2).blk t).view.emb j := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 4000 + 1 * (j 0).val = win2_2.index t (0 : Fin 2) * 4000 + 1 * (j 0).val; omega
    | ⟨1, _⟩ => show win2_1.index t (1 : Fin 2) * 128 + 1 * (j 1).val = win2_2.index t (1 : Fin 2) * 128 + 1 * (j 1).val; omega
  exact squaredDiff_at (V c main_v24) (V c main_v25) _ _ _ h0 h1

/-- An index of the output array lies in point t's block exactly when, on each axis, its coordinate falls in
    the block's range there. -/
theorem mem_block (t : Fin cfg2.N) (i : S400000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v26).slice (win2_2.rect t)).set ↔ _
  rw [View.set_slice_whole, Rect.mem_set_unit]
  exact Iff.rfl

/-- Every index of the output array is written by some grid point: row r belongs to point r / 4000, one of the
    hundred since r < 400000, and all 128 columns belong to every block. -/
theorem covered (i : S400000x128.Idx) :
    ∃ t : Fin cfg2.N, (cfg2.win 2).flush t = true ∧ i ∈ ((cfg2.win 2).blk t).view.set := by
  have hi0 : (i 0).val < 400000 := (i 0).isLt
  have hi1 : (i 1).val < 128 := (i 1).isLt
  have hN : cfg2.N = 100 := N_2
  let t : Fin cfg2.N := ⟨(i 0).val / 4000, by omega⟩
  obtain ⟨-, -, -, -, o0, o1⟩ := block_index t
  have ht : t.val = (i 0).val / 4000 := rfl
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- After the region, the output array is stage three of the two arrays the region read. -/
theorem final (c : Dev nD) :
    (dat2 (F := Ideal) V c).arrAt 2 cfg2.N = squaredDiff (V c main_v24) (V c main_v25) := by
  exact (dat2 (F := Ideal) V c).arrAt_eq_of_cover 2 (squaredDiff (V c main_v24) (V c main_v25))
    (fun t _ => written_block V c t) covered

end Cert.Gcn.Region2

end
-- ==== Proof.Region3.lean ====
/-
  Region 3 (mean and tanh): the whole output array after the ten grid points, each of which writes back its block of 5000 rows.
-/
import proofs.«417841_j61658550502079_3_alg».proof.Proof.Gen.KernelIdeal.Frame
import proofs.«417841_j61658550502079_3_alg».proof.Proof.Stages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open scoped BigOperators

namespace Cert.Gcn.Region3

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

/-- The two zero offsets of a whole-buffer access, as the constant function. -/
theorem zeroOffsets : (![0, 0] : Fin 2 → Nat) = fun _ => 0 := funext fun a => by fin_cases a <;> rfl

/-- The body's stored value at row p, feature q: tanh of the sum entry over the count of row p, the count floored at one. -/
theorem stored_apply (cnt : Vec Ideal S5000x1 .f32) (s : Vec Ideal S5000x32 .f32) (p : Fin 5000) (q : Fin 32) :
    k3_pay1 cnt s (ix2 p q) = Ideal.tanh (Ideal.div (s (ix2 p q)) (max (cnt (ix2 p 0)) (1 : EReal))) := by
  unfold k3_pay1
  simp only [shapeCast_self]
  -- tanh and the quotient act entry by entry; what is left is the divisor at (p, q)
  refine congrArg Ideal.tanh (congrArg (Ideal.div (s (ix2 p q))) ?_)
  -- the column of floored counts, spread over the 32 features, is read at (p, 0)
  refine (broadcastTo_apply _ broadcasts_S5000x1_S5000x32 (ix2 p q) (ix2 p 0) (fun a => ?_)).trans ?_
  · match a with
    | ⟨0, _⟩ => rfl
    | ⟨1, _⟩ => rfl
  · show max (cnt (ix2 p 0)) (Ideal.ofBits .f32 0x3F800000#32) = _
    rw [Ideal.ofBits_one_f32]

/-- The same at any index of the block: the divisor is read in the index's own row. -/
theorem stored_at (cnt : Vec Ideal S5000x1 .f32) (s : Vec Ideal S5000x32 .f32) (j : S5000x32.Idx) :
    k3_pay1 cnt s j = Ideal.tanh (Ideal.div (s j) (max (cnt (ix2 (j 0) 0)) (1 : EReal))) := by
  obtain ⟨p, q, rfl⟩ : ∃ (p : Fin 5000) (q : Fin 32), j = ix2 p q := ⟨j 0, j 1, eq_ix2 j⟩
  exact stored_apply cnt s p q

/-- The printed block indices over the ten grid points: the sums and the counts move with the output, whose block at
    point t is block row t, block column 0. -/
theorem blockIndex : ∀ t : Fin cfg3.N,
    win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What grid point t writes back is block t of the whole-array function. -/
theorem writeBack_eq (c : Dev nD) (t : Fin cfg3.N) :
    (dat3 (F := Ideal) V c).flushed 2 t
      = ((cfg3.win 2).blk t).view.read (Elt Ideal) (meanTanh (V c main_v30) (V c main_v35)) := by
  show (cfg3.win 2).cut (grid3.coords t) ((dat3 V c).after 2 t) = _
  rw [after3_2]
  unfold out3_2
  rw [View.canon_unit_zero zeroOffsets]
  simp only [View.ld_unit_zero (S := S5000x32) zeroOffsets, View.ld_unit_zero (S := S5000x1) zeroOffsets]
  obtain ⟨e0, e1, e2, e3, e4, e5⟩ := blockIndex t
  funext j
  show k3_pay1 (iblk3 V c 1 t) (iblk3 V c 0 t) j
      = meanTanh (V c main_v30) (V c main_v35) (((cfg3.win 2).blk t).view.emb j)
  refine (stored_at _ _ j).trans ?_
  show Ideal.tanh (Ideal.div (V c main_v30 (((cfg3.win 0).blk t).view.emb j))
        (max (V c main_v35 (((cfg3.win 1).blk t).view.emb (ix2 (j 0) 0))) (1 : EReal)))
      = Ideal.tanh (Ideal.div (V c main_v30 (((cfg3.win 2).blk t).view.emb j))
        (max (V c main_v35 (ix2 ((((cfg3.win 2).blk t).view.emb j) 0) 0)) (1 : EReal)))
  -- the block of sums sits where the output block sits
  have sumsAt : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * (j 1).val = win3_2.index t (1 : Fin 2) * 32 + 1 * (j 1).val; omega
  -- the block of counts covers the same rows, in its single column
  have countsAt : V c main_v35 (((cfg3.win 1).blk t).view.emb (ix2 (j 0) 0))
      = V c main_v35 (ix2 ((((cfg3.win 2).blk t).view.emb j) 0) 0) := by
    refine congrArg (V c main_v35) (funext fun a => Fin.ext ?_)
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 1 + 1 * 0 = 0; omega
  rw [sumsAt, countsAt]

/-- An index of the output array lies in point t's block exactly when, on each axis, it lies in the block's range. -/
theorem mem_rowBlock (t : Fin cfg3.N) (i : S50000x32.Idx) :
    i ∈ ((cfg3.win 2).blk t).view.set ↔
      ∀ a : Fin 2, win3_2.index t a * S5000x32.size a ≤ (i a).val
        ∧ (i a).val < win3_2.index t a * S5000x32.size a + S5000x32.size a := by
  show i ∈ ((View.whole main_v36).slice (win3_2.rect t)).set ↔ _
  rw [View.set_slice_whole, Rect.mem_set_unit]
  exact Iff.rfl

/-- The ten blocks of 5000 rows tile the 50000 rows: row r belongs to the block of point r / 5000. -/
theorem rows_tiled (i : S50000x32.Idx) :
    ∃ t : Fin cfg3.N, (cfg3.win 2).flush t = true ∧ i ∈ ((cfg3.win 2).blk t).view.set := by
  have hi0 : (i 0).val < 50000 := (i 0).isLt
  have hi1 : (i 1).val < 32 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := blockIndex t
  refine ⟨t, flush3_2 t, ?_⟩
  rw [mem_rowBlock]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 32 ≤ (i 1).val ∧ (i 1).val < win3_2.index t (1 : Fin 2) * 32 + 32
    omega

/-- After the region, the output array is stage four of the two arrays the region read. -/
theorem final (c : Dev nD) :
    (dat3 (F := Ideal) V c).arrAt 2 cfg3.N = meanTanh (V c main_v30) (V c main_v35) := by
  exact (dat3 V c).arrAt_eq_of_cover 2 (meanTanh (V c main_v30) (V c main_v35))
    (fun t _ => writeBack_eq V c t) rows_tiled

end Cert.Gcn.Region3

end
-- ==== Proof.KernelChainB.lean ====
/-
  The kernel program's result array at its last boundary, from the buffers at the second dense stage's exit: the edge
  statistic of the activations, the sources and the targets found there.

  Between that exit and the last boundary the program runs two takes of rows (at the sources, at the targets), two
  reshapes to 128 a row, the third stage (squared differences), a reshape back, two sums by source (of the rows and of
  ones) and the last stage (mean and tanh). Each buffer is followed from boundary to boundary: a stretch of host
  operations leaves in its result buffer the composed term of its operations over the buffers it read, a stage leaves
  in its output array its stage function of its input arrays, and a buffer that a stretch or a stage does not write is
  carried over.
-/
import proofs.«417841_j61658550502079_3_alg».proof.Proof.Gen.KernelIdeal.Frame
import proofs.«417841_j61658550502079_3_alg».proof.Proof.KernelTerms
import proofs.«417841_j61658550502079_3_alg».proof.Proof.Region2
import proofs.«417841_j61658550502079_3_alg».proof.Proof.Region3
import Idealize.ShloMosaic.Lib.StableHlo.Run
import Idealize.ShloMosaic.Lib.Pipeline.Value

set_option maxRecDepth 16384

noncomputable section

namespace Cert.Gcn.ChainB

open Idealize.ShloMosaic Idealize.ShloMosaic.TcCoe Idealize.SL.Sem Idealize.ShloMosaic.StableHlo
open Cert.KernelIdeal Cert.KernelIdeal.Gen Cert.Gcn Cert.Gcn.KTerms
open Cert.ReferenceIdeal.Read (val_main_v1 val_main_v3 val_main_v5 val_main_v6 val_main_v13)

/-- A buffer that none of a host stretch's operations writes holds after the stretch what it held before. -/
local macro "host_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The host stretches, over any model of the floats and any contents at their entry

The operations of a take name their buffers through typed references, which move a value to the buffer's own type and
back; both moves are the identity. -/

section Casts

variable {Val : EltTy → Type} {T : BufTy}

/-- Contents moved to a typed reference's buffer type and back are the contents. -/
theorem ofBuf_toBuf (x : TRef sig T) (v : T.Contents Val) : x.ofBuf (x.toBuf v) = v := by
  obtain ⟨r, h, h2, h3⟩ := x
  subst h
  rfl

end Casts

section Take

variable {F : FTy → Type} [FloatOps F]

/-- Rows of `x` taken at E node numbers, over any model of the floats: `takeEdges` is this at the extended reals. -/
def takeRows (x : FVec F S50000x32 .f32) (idx : IVec S1600000 32) : FVec F S1600000x32 .f32 :=
  let moved : IVec S1600000 32 :=
    select (cmpi .slt idx (broadcastInDim S1600000 ![] bcast_S_S1600000 (constantI S_ 32 0#32)))
      (addi idx (broadcastInDim S1600000 ![] bcast_S_S1600000 (constantI S_ 32 50000#32))) idx
  let col : IVec S1600000x1 32 := broadcastInDim S1600000x1 ![0] bcast_S1600000_S1600000x1_0 moved
  let lo : IVec S1600000x1 1 := cmpi .sge col (broadcastInDim S1600000x1 ![] bcast_S_S1600000x1 (constantI S_ 32 0#32))
  let hi : IVec S1600000x1 1 := cmpi .sle col
    (broadcastInDim S1600000x1 ![0, 1] bcast_S1x1_S1600000x1_0_1 (broadcastInDim S1x1 ![1] bcast_S1_S1x1_1 (constantI S1 32 49999#32)))
  let ok : IVec S1600000 1 := Host.reduce IntOp.andi (andi lo hi) (constantI S_ 1 1#1) reducesTo_S1600000x1_S1600000_d1 h_S_
  select (broadcastInDim S1600000x32 ![0] bcast_S1600000_S1600000x32_0 ok)
    (Host.gather gather_S50000x32_S1600000x1_S1600000x32_1_0_n_n_0_1_132 x col)
    (broadcastInDim S1600000x32 ![] bcast_S_S1600000x32 (constant (F := F) S_ .f32 0x7FC00000#32))

/-- At the extended reals it is `takeEdges`. -/
theorem takeEdges_eq : takeEdges = takeRows (F := Ideal) := rfl

/-- The first take: after its operations the result buffer holds the rows of the activations at the sources. -/
theorem after_take1 (V : Valuation τ sig (Elt F)) :
    StableHlo.after hostOps2 V (Proc.devRef .tc main_v22)
      = takeRows (V (Proc.devRef .tc main_v21)) (V (Proc.devRef .tc main_v1)) := by
  after_results_simp
  repeat rw [ofBuf_toBuf]
  have e1 : ∀ h1 h2 h3, (TRef.of main_v1 h1 h2 h3 : TRef sig ⟨S1600000, .i32⟩).ofBuf (V (Proc.devRef .tc main_v1)) = V (Proc.devRef .tc main_v1) := fun _ _ _ => rfl
  have e21 : ∀ h1 h2 h3, (TRef.of main_v21 h1 h2 h3 : TRef sig ⟨S50000x32, .f32⟩).ofBuf (V (Proc.devRef .tc main_v21)) = V (Proc.devRef .tc main_v21) := fun _ _ _ => rfl
  have e22 : ∀ h1 h2 h3 (X : (⟨S1600000x32, .f32⟩ : BufTy).Contents (Elt F)),
      (TRef.of main_v22 h1 h2 h3 : TRef sig ⟨S1600000x32, .f32⟩).toBuf X = X := fun _ _ _ _ => rfl
  rw [e1, e21, e22]
  rfl

/-- The second take: after its operations the result buffer holds the rows of the activations at the targets. -/
theorem after_take2 (V : Valuation τ sig (Elt F)) :
    StableHlo.after hostOps2_1 V (Proc.devRef .tc main_v23)
      = takeRows (V (Proc.devRef .tc main_v21)) (V (Proc.devRef .tc main_v3)) := by
  after_results_simp
  repeat rw [ofBuf_toBuf]
  have e3 : ∀ h1 h2 h3, (TRef.of main_v3 h1 h2 h3 : TRef sig ⟨S1600000, .i32⟩).ofBuf (V (Proc.devRef .tc main_v3)) = V (Proc.devRef .tc main_v3) := fun _ _ _ => rfl
  have e21 : ∀ h1 h2 h3, (TRef.of main_v21 h1 h2 h3 : TRef sig ⟨S50000x32, .f32⟩).ofBuf (V (Proc.devRef .tc main_v21)) = V (Proc.devRef .tc main_v21) := fun _ _ _ => rfl
  have e23 : ∀ h1 h2 h3 (X : (⟨S1600000x32, .f32⟩ : BufTy).Contents (Elt F)),
      (TRef.of main_v23 h1 h2 h3 : TRef sig ⟨S1600000x32, .f32⟩).toBuf X = X := fun _ _ _ _ => rfl
  rw [e3, e21, e23]
  rfl

end Take

section Stretches

variable {F : FTy → Type} [FloatOps F]

/-- The first reshape: the rows taken at the sources, laid out 128 to a row. -/
theorem after_reshape24 (V : Valuation τ sig (Elt F)) :
    StableHlo.after hostOps2_2 V (Proc.devRef .tc main_v24)
      = shapeCast S400000x128 (V (Proc.devRef .tc main_v22)) shapeCasts_S1600000x32_S400000x128 := by
  after_results_simp
  rfl

/-- The second reshape: the rows taken at the targets, laid out 128 to a row. -/
theorem after_reshape25 (V : Valuation τ sig (Elt F)) :
    StableHlo.after hostOps2_2 V (Proc.devRef .tc main_v25)
      = shapeCast S400000x128 (V (Proc.devRef .tc main_v23)) shapeCasts_S1600000x32_S400000x128 := by
  after_results_simp
  rfl

/-- The sum by source of the squared differences, laid out 32 to a row again. -/
theorem after_sum30 (V : Valuation τ sig (Elt F)) :
    StableHlo.after hostOps3 V (Proc.devRef .tc main_v30)
      = Host.scatterAdd scatter_S50000x32_S1600000x1_S1600000x32_1_0_0_1
          (broadcastInDim S50000x32 ![] bcast_S_S50000x32 (constant (F := F) S_ .f32 0x00000000#32))
          (broadcastInDim S1600000x1 ![0] bcast_S1600000_S1600000x1_0 (V (Proc.devRef .tc main_v1)))
          (shapeCast S1600000x32 (V (Proc.devRef .tc main_v26)) shapeCasts_S400000x128_S1600000x32) := by
  after_results_simp
  rfl

/-- The number of edges leaving each node, as a column. -/
theorem after_count35 (V : Valuation τ sig (Elt F)) :
    StableHlo.after hostOps3 V (Proc.devRef .tc main_v35)
      = shapeCast S50000x1
          (Host.scatterAdd scatter_S50000_S1600000x1_S1600000_n_0_0_1
            (broadcastInDim S50000 ![] bcast_S_S50000 (constant (F := F) S_ .f32 0x00000000#32))
            (broadcastInDim S1600000x1 ![0] bcast_S1600000_S1600000x1_0 (V (Proc.devRef .tc main_v1)))
            (broadcastInDim S1600000 ![] bcast_S_S1600000 (constant (F := F) S_ .f32 0x3F800000#32)))
          shapeCasts_S50000_S50000x1 := by
  after_results_simp
  rfl

end Stretches

/-! ## The buffers from boundary to boundary, at the extended reals -/

variable (m : (ℓ : Loc nD τ sig) → Buf (Elt Ideal) ℓ) (ρ : Dev nD → PrngReg)

/-- The sources are written by no operation and no stage between the second stage's exit and the last stage's entry. -/
theorem W9_v1 (c : Dev nD) : W9 m ρ c (Proc.devRef .tc main_v1) = W5 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by host_keeps hostOps2_2
    _ = W6 m ρ c (Proc.devRef .tc main_v1) := by host_keeps hostOps2_1
    _ = W5 m ρ c (Proc.devRef .tc main_v1) := by host_keeps hostOps2

/-- After the first take: the rows of the activations at the sources. -/
theorem W6_v22 (c : Dev nD) :
    W6 m ρ c (Proc.devRef .tc main_v22)
      = takeEdges (W5 m ρ c (Proc.devRef .tc main_v21)) (W5 m ρ c (Proc.devRef .tc main_v1)) := by
  rw [takeEdges_eq]
  exact after_take1 (W5 m ρ c)

/-- After the second take: the rows of the activations at the targets (the first take wrote neither the activations nor
    the targets). -/
theorem W7_v23 (c : Dev nD) :
    W7 m ρ c (Proc.devRef .tc main_v23)
      = takeEdges (W5 m ρ c (Proc.devRef .tc main_v21)) (W5 m ρ c (Proc.devRef .tc main_v3)) := by
  have e21 : W6 m ρ c (Proc.devRef .tc main_v21) = W5 m ρ c (Proc.devRef .tc main_v21) := by host_keeps hostOps2
  have e3 : W6 m ρ c (Proc.devRef .tc main_v3) = W5 m ρ c (Proc.devRef .tc main_v3) := by host_keeps hostOps2
  rw [takeEdges_eq, ← e21, ← e3]
  exact after_take2 (W6 m ρ c)

/-- The second take leaves the first take's result in place. -/
theorem W7_v22 (c : Dev nD) :
    W7 m ρ c (Proc.devRef .tc main_v22)
      = takeEdges (W5 m ρ c (Proc.devRef .tc main_v21)) (W5 m ρ c (Proc.devRef .tc main_v1)) :=
  (show W7 m ρ c (Proc.devRef .tc main_v22) = W6 m ρ c (Proc.devRef .tc main_v22) by host_keeps hostOps2_1).trans
    (W6_v22 m ρ c)

/-- At the third stage's entry its first input is the rows at the sources, 128 to a row. -/
theorem W8_v24 (c : Dev nD) :
    W8 m ρ c (Proc.devRef .tc main_v24)
      = shapeCast S400000x128 (takeEdges (W5 m ρ c (Proc.devRef .tc main_v21)) (W5 m ρ c (Proc.devRef .tc main_v1)))
          shapeCasts_S1600000x32_S400000x128 := by
  rw [← W7_v22 m ρ c]
  exact after_reshape24 (W7 m ρ c)

/-- At the third stage's entry its second input is the rows at the targets, 128 to a row. -/
theorem W8_v25 (c : Dev nD) :
    W8 m ρ c (Proc.devRef .tc main_v25)
      = shapeCast S400000x128 (takeEdges (W5 m ρ c (Proc.devRef .tc main_v21)) (W5 m ρ c (Proc.devRef .tc main_v3)))
          shapeCasts_S1600000x32_S400000x128 := by
  rw [← W7_v23 m ρ c]
  exact after_reshape25 (W7 m ρ c)

/-- At the third stage's exit its output is the squared differences of those two inputs. -/
theorem W9_v26 (c : Dev nD) :
    W9 m ρ c (Proc.devRef .tc main_v26)
      = squaredDiff
          (shapeCast S400000x128 (takeEdges (W5 m ρ c (Proc.devRef .tc main_v21)) (W5 m ρ c (Proc.devRef .tc main_v1)))
            shapeCasts_S1600000x32_S400000x128)
          (shapeCast S400000x128 (takeEdges (W5 m ρ c (Proc.devRef .tc main_v21)) (W5 m ρ c (Proc.devRef .tc main_v3)))
            shapeCasts_S1600000x32_S400000x128) := by
  rw [← W8_v24 m ρ c, ← W8_v25 m ρ c]
  exact (W9_arr m ρ c 2).trans (Cert.Gcn.Region2.final (V8 m ρ) c)

/-- At the last stage's entry its first input is the squared differences added up by source. -/
theorem W10_v30 (c : Dev nD) :
    W10 m ρ c (Proc.devRef .tc main_v30)
      = Host.scatterAdd scatter_S50000x32_S1600000x1_S1600000x32_1_0_0_1
          (broadcastInDim S50000x32 ![] bcast_S_S50000x32 (constant (F := Ideal) S_ .f32 0x00000000#32))
          (broadcastInDim S1600000x1 ![0] bcast_S1600000_S1600000x1_0 (W5 m ρ c (Proc.devRef .tc main_v1)))
          (shapeCast S1600000x32
            (squaredDiff
              (shapeCast S400000x128 (takeEdges (W5 m ρ c (Proc.devRef .tc main_v21)) (W5 m ρ c (Proc.devRef .tc main_v1)))
                shapeCasts_S1600000x32_S400000x128)
              (shapeCast S400000x128 (takeEdges (W5 m ρ c (Proc.devRef .tc main_v21)) (W5 m ρ c (Proc.devRef .tc main_v3)))
                shapeCasts_S1600000x32_S400000x128))
            shapeCasts_S400000x128_S1600000x32) := by
  rw [← W9_v26 m ρ c, ← W9_v1 m ρ c]
  exact after_sum30 (W9 m ρ c)

/-- At the last stage's entry its second input is the number of edges leaving each node. -/
theorem W10_v35 (c : Dev nD) :
    W10 m ρ c (Proc.devRef .tc main_v35)
      = shapeCast S50000x1
          (Host.scatterAdd scatter_S50000_S1600000x1_S1600000_n_0_0_1
            (broadcastInDim S50000 ![] bcast_S_S50000 (constant (F := Ideal) S_ .f32 0x00000000#32))
            (broadcastInDim S1600000x1 ![0] bcast_S1600000_S1600000x1_0 (W5 m ρ c (Proc.devRef .tc main_v1)))
            (broadcastInDim S1600000 ![] bcast_S_S1600000 (constant (F := Ideal) S_ .f32 0x3F800000#32)))
          shapeCasts_S50000_S50000x1 := by
  rw [← W9_v1 m ρ c]
  exact after_count35 (W9 m ρ c)

/-- The result array after the last stage is `edgeStatistic` of the activations, sources and targets as the second
    stage left them. -/
theorem result_eq (c : Dev nD) :
    W11 m ρ c (Proc.devRef .tc main_v36)
      = edgeStatistic (W5 m ρ c (Proc.devRef .tc main_v21)) (W5 m ρ c (Proc.devRef .tc main_v1))
          (W5 m ρ c (Proc.devRef .tc main_v3)) := by
  unfold edgeStatistic
  rw [← W10_v30 m ρ c, ← W10_v35 m ρ c]
  exact (W11_arr m ρ c 2).trans (Cert.Gcn.Region3.final (V10 m ρ) c)

end Cert.Gcn.ChainB

end
-- ==== Proof.PreFacts.lean ====
/-
  What the precondition says, decoded: every feature, weight and bias entry is a real number, and every node number
  of the edge list, read signed, lies in 0 … N - 1.
-/
import proofs.«417841_j61658550502079_3_alg».proof.Pre_finite_inputs
import proofs.«417841_j61658550502079_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

open scoped BigOperators

namespace Cert.Gcn.PreFacts

open Idealize.ShloMosaic Cert.Pre_finite_inputs

/-- The rank-0 shape has one index. -/
instance subsingleton_S_ : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value max x (-x) is below +∞ is a real number: at ⊥ the
    absolute value is -⊥ = ⊤, at ⊤ it is ⊤, and ⊤ < ⊤ fails. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [inf_word] at h'
  simp only [Ideal.cmp, StableHlo.Predicate.ofBool_eq_one_iff, decide_eq_true_eq] at h'
  induction x using EReal.rec with
  | bot => simp at h'
  | coe r => exact ⟨r, rfl⟩
  | top => simp at h'

/-- A word that is at least 0 and below 50000, both read signed, has its signed value in 0 … 49999. -/
theorem range_of_cmpi (e : BitVec 32) (h0 : IntOp.cmpi .sge e 0#32 = 1#1) (h1 : IntOp.cmpi .slt e 50000#32 = 1#1) :
    0 ≤ e.toInt ∧ e.toInt < 50000 := by
  rw [IntOp.cmpi_sge] at h0
  rw [IntOp.cmpi_slt] at h1
  have e0 : (0#32).toInt = 0 := by decide
  have e1 : (50000#32).toInt = 50000 := by decide
  rw [e0] at h0
  rw [e1] at h1
  exact ⟨h0, h1⟩

end Cert.Gcn.PreFacts

namespace Cert.Gcn

open Idealize.ShloMosaic Cert.Pre_finite_inputs Cert.Gcn.PreFacts

/-- The precondition all ones gives the four facts the proof uses. -/
theorem of_pre (X : FVec Ideal S50000x32 .f32) (ei : IVec S2x1600000 32) (W : FVec Ideal S32x32 .f32)
    (b : FVec Ideal S32 .f32)
    (h : Cert.Pre_finite_inputs.fn (F := Ideal) X ei W b = fun _ => 1#1) :
    (∀ i, ∃ r : ℝ, X i = (r : EReal)) ∧ (∀ i, ∃ r : ℝ, W i = (r : EReal)) ∧ (∀ i, ∃ r : ℝ, b i = (r : EReal))
      ∧ (∀ j : S2x1600000.Idx, 0 ≤ (ei j).toInt ∧ (ei j).toInt < 50000) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun j => ?_⟩
  · exact real_of_abs_lt (X i) (Host.reduce_andi_all _ _ _ _ _ h1 i)
  · exact real_of_abs_lt (W i) (Host.reduce_andi_all _ _ _ _ _ h2 i)
  · exact real_of_abs_lt (b i) (Host.reduce_andi_all _ _ _ _ _ h3 i)
  · obtain ⟨hge, hlt⟩ := IntOp.andi_eq_one.1 (Host.reduce_andi_all _ _ _ _ _ h4 j)
    exact range_of_cmpi (ei j) hge hlt

end Cert.Gcn

end
-- ==== Proof.ClosedForm.lean ====
/-
  The graph layer in closed form: what each entry of the activations and of the final edge statistic is, as plain sums
  over the edges, once every node number of the edge list is known to lie in 0 … N - 1.

  With the node numbers in range, the sources, targets, and both with the N self-loops appended are functions into
  the nodes. The activations' entry (i, d) is then a sum over the edges (and self-loops) whose target is i, and the
  final statistic's entry (i, d) a sum over the edges whose source is i. Both programs are read to these forms.
-/
import proofs.«417841_j61658550502079_3_alg».proof.Proof.KernelTerms
import Idealize.ShloMosaic.Lib.ValueIdx

noncomputable section

open scoped BigOperators

namespace Cert.Gcn

open Idealize.ShloMosaic Idealize.ShloMosaic.ValueIdx Cert.Gcn.KTerms
open Cert.ReferenceIdeal (S50000x32 S32x32 S32 S2x1600000 S1600000 S1650000 S50000)
open Cert.ReferenceIdeal.Read (val_main_v1 val_main_v3 val_main_v5 val_main_v6 val_main_v13)

/-- Every node number of the edge list, read signed, lies in 0 … N - 1. -/
def InRange (ei : Edges) : Prop := ∀ j : S2x1600000.Idx, 0 ≤ (ei j).toInt ∧ (ei j).toInt < 50000

/-- The edge list's node numbers as functions into the nodes: sources and targets of the E edges, and the same with
    the N self-loops appended (`col` the sources, `row` the targets). -/
structure NodeMaps (ei : Edges) where
  src : Fin 1600000 → Fin 50000
  dst : Fin 1600000 → Fin 50000
  col : Fin 1650000 → Fin 50000
  row : Fin 1650000 → Fin 50000
  src_eq : ∀ k, (val_main_v1 (F := Ideal) ei (ix1 k)).toInt = ((src k).val : Int)
  dst_eq : ∀ k, (val_main_v3 (F := Ideal) ei (ix1 k)).toInt = ((dst k).val : Int)
  col_eq : ∀ k, (val_main_v6 (F := Ideal) ei (ix1 k)).toInt = ((col k).val : Int)
  row_eq : ∀ k, (val_main_v5 (F := Ideal) ei (ix1 k)).toInt = ((row k).val : Int)

/-- Entry (n, d) of the product of the features with the weights. -/
def featTimesWeight (X : FVec Ideal S50000x32 .f32) (W : FVec Ideal S32x32 .f32) (n : Fin 50000) (d : Fin 32) : EReal :=
  ∑ j : Fin 32, X (ix2 n j) * W (ix2 j d)

/-- Node n's normalisation factor. -/
def factor (ei : Edges) (n : Fin 50000) : EReal := val_main_v13 (F := Ideal) ei (ix1 n)

/-- The activations' entry (i, d) as the kernel program groups it: the messages scaled by the source's factor are
    added up first, the target's factor multiplies the sum. -/
def activationFactored {ei : Edges} (μ : NodeMaps ei) (X : FVec Ideal S50000x32 .f32) (W : FVec Ideal S32x32 .f32)
    (b : FVec Ideal S32 .f32) (i : Fin 50000) (d : Fin 32) : EReal :=
  max ((∑ k ∈ Finset.univ.filter (fun k : Fin 1650000 => μ.row k = i),
      featTimesWeight X W (μ.col k) d * factor ei (μ.col k)) * factor ei i + b (ix1 d)) 0

/-- The same entry as the reference program groups it: each message carries both factors. -/
def activationTermwise {ei : Edges} (μ : NodeMaps ei) (X : FVec Ideal S50000x32 .f32) (W : FVec Ideal S32x32 .f32)
    (b : FVec Ideal S32 .f32) (i : Fin 50000) (d : Fin 32) : EReal :=
  max ((∑ k ∈ Finset.univ.filter (fun k : Fin 1650000 => μ.row k = i),
      featTimesWeight X W (μ.col k) d * (factor ei (μ.col k) * factor ei (μ.row k))) + b (ix1 d)) 0

/-- How many edges leave node i, as an extended real. -/
def outCount {ei : Edges} (μ : NodeMaps ei) (i : Fin 50000) : EReal :=
  ∑ k ∈ Finset.univ.filter (fun k : Fin 1600000 => μ.src k = i), (1 : EReal)

/-- The final statistic's entry (i, d) for activations `h`, with `sq` the way a difference is squared. -/
def statisticWith {ei : Edges} (μ : NodeMaps ei) (sq : EReal → EReal) (h : FVec Ideal S50000x32 .f32)
    (i : Fin 50000) (d : Fin 32) : EReal :=
  Ideal.tanh (Ideal.div
    (∑ k ∈ Finset.univ.filter (fun k : Fin 1600000 => μ.src k = i), sq (h (ix2 (μ.src k) d) - h (ix2 (μ.dst k) d)))
    (max (outCount μ i) 1))

end Cert.Gcn

end
-- ==== Proof.NodeMapsOf.lean ====
/-
  With every node number of the edge list in range, the sources, the targets and both with the self-loops appended are
  functions into the nodes: an appended self-loop's number is its position, which is a node.
-/
import proofs.«417841_j61658550502079_3_alg».proof.Proof.ClosedForm
import Idealize.ShloMosaic.Lib.Pipeline.Value
import Idealize.ShloMosaic.Lib.ValueIdx

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

namespace NodeMapsOf

/-- Entry k of the sources is entry (0, k) of the edge list. -/
theorem sources_at (ei : Edges) (k : Fin 1600000) :
    val_main_v1 (F := Ideal) ei (ix1 k) = ei (ix2 (0 : Fin 2) k) := by
  rw [val_main_v1_apply, val_main_v0_apply]
  congr 1
  funext a
  match a with
  | ⟨0, _⟩ => rfl
  | ⟨1, _⟩ => apply Fin.ext; show (k.val % 1600000) = k.val; omega

/-- Entry k of the targets is entry (1, k) of the edge list. -/
theorem targets_at (ei : Edges) (k : Fin 1600000) :
    val_main_v3 (F := Ideal) ei (ix1 k) = ei (ix2 (1 : Fin 2) k) := by
  rw [val_main_v3_apply, val_main_v2_apply]
  congr 1
  funext a
  match a with
  | ⟨0, _⟩ => rfl
  | ⟨1, _⟩ => apply Fin.ext; show (k.val % 1600000) = k.val; omega

/-- Joining a vector of 1600000 entries with one of 50000: an entry below 1600000 is the first vector's. -/
theorem join_left {α : Type} (x : S1600000.Idx → α) (y : S50000.Idx → α)
    (h : Shape.Concatenates [S1600000, S50000] S1650000 (0 : Fin 1)) (k : Fin 1650000) (hk : k.val < 1600000) :
    concatenate S1650000 (0 : Fin 1) [⟨S1600000, x⟩, ⟨S50000, y⟩] h (ix1 k) = x (ix1 ⟨k.val, hk⟩) := by
  refine concatenate_pair_apply_left (0 : Fin 1) x y h (ix1 k) rfl (ix1 ⟨k.val, hk⟩) ?_
  intro b
  match b with
  | ⟨0, _⟩ => rfl

/-- An entry from 1600000 on is the second vector's, 1600000 places earlier. -/
theorem join_right {α : Type} (x : S1600000.Idx → α) (y : S50000.Idx → α)
    (h : Shape.Concatenates [S1600000, S50000] S1650000 (0 : Fin 1)) (k : Fin 1650000) (hk : 1600000 ≤ k.val) :
    concatenate S1650000 (0 : Fin 1) [⟨S1600000, x⟩, ⟨S50000, y⟩] h (ix1 k)
      = y (ix1 ⟨k.val - 1600000, by have := k.isLt; omega⟩) := by
  refine concatenate_pair_apply_right (0 : Fin 1) x y h (ix1 k) rfl rfl
    (ix1 ⟨k.val - 1600000, by have := k.isLt; omega⟩) ?_ ?_
  · intro b hb
    match b with
    | ⟨0, _⟩ => exact absurd rfl hb
  · show (k.val - 1600000) + 1600000 = k.val
    omega

/-- The 32-bit word of a number below 50000, read signed, is that number. -/
theorem toInt_ofNat_small (n : Nat) (hn : n < 50000) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  have : 2 * n < 2 ^ 32 := by omega
  rw [if_pos this]

/-- An integer in 0 … 49999 is a node. -/
theorem exists_node (z : Int) (h0 : 0 ≤ z) (h1 : z < 50000) : ∃ n : Fin 50000, z = (n.val : Int) :=
  ⟨⟨z.toNat, by omega⟩, by show z = ((z.toNat : Nat) : Int); omega⟩

/-- Every source is a node. -/
theorem sources_node (ei : Edges) (h : InRange ei) (k : Fin 1600000) :
    ∃ n : Fin 50000, (val_main_v1 (F := Ideal) ei (ix1 k)).toInt = (n.val : Int) := by
  rw [sources_at]
  exact exists_node _ (h _).1 (h _).2

/-- Every target is a node. -/
theorem targets_node (ei : Edges) (h : InRange ei) (k : Fin 1600000) :
    ∃ n : Fin 50000, (val_main_v3 (F := Ideal) ei (ix1 k)).toInt = (n.val : Int) := by
  rw [targets_at]
  exact exists_node _ (h _).1 (h _).2

/-- An appended self-loop's number, at position k ≥ 1600000 of the joined vector, is k - 1600000. -/
theorem loop_node (k : Fin 1650000) (hk : 1600000 ≤ k.val) :
    ∃ n : Fin 50000, (val_main_v4 (F := Ideal) (ix1 ⟨k.val - 1600000, by have := k.isLt; omega⟩)).toInt
      = (n.val : Int) := by
  have hlt : k.val - 1600000 < 50000 := by have := k.isLt; omega
  refine ⟨⟨k.val - 1600000, hlt⟩, ?_⟩
  rw [val_main_v4_apply]
  exact toInt_ofNat_small _ hlt

/-- Every source, the self-loops appended, is a node. -/
theorem sourcesLoops_node (ei : Edges) (h : InRange ei) (k : Fin 1650000) :
    ∃ n : Fin 50000, (val_main_v6 (F := Ideal) ei (ix1 k)).toInt = (n.val : Int) := by
  unfold val_main_v6
  by_cases hk : k.val < 1600000
  · rw [join_left _ _ _ k hk]
    exact sources_node ei h ⟨k.val, hk⟩
  · rw [join_right _ _ _ k (Nat.le_of_not_lt hk)]
    exact loop_node k (Nat.le_of_not_lt hk)

/-- Every target, the self-loops appended, is a node. -/
theorem targetsLoops_node (ei : Edges) (h : InRange ei) (k : Fin 1650000) :
    ∃ n : Fin 50000, (val_main_v5 (F := Ideal) ei (ix1 k)).toInt = (n.val : Int) := by
  unfold val_main_v5
  by_cases hk : k.val < 1600000
  · rw [join_left _ _ _ k hk]
    exact targets_node ei h ⟨k.val, hk⟩
  · rw [join_right _ _ _ k (Nat.le_of_not_lt hk)]
    exact loop_node k (Nat.le_of_not_lt hk)

end NodeMapsOf

open NodeMapsOf in
/-- In-range edge lists have node maps. -/
theorem nodeMaps_of_inRange (ei : Edges) (h : InRange ei) : Nonempty (NodeMaps ei) :=
  ⟨{ src := fun k => Classical.choose (sources_node ei h k)
     dst := fun k => Classical.choose (targets_node ei h k)
     col := fun k => Classical.choose (sourcesLoops_node ei h k)
     row := fun k => Classical.choose (targetsLoops_node ei h k)
     src_eq := fun k => Classical.choose_spec (sources_node ei h k)
     dst_eq := fun k => Classical.choose_spec (targets_node ei h k)
     col_eq := fun k => Classical.choose_spec (sourcesLoops_node ei h k)
     row_eq := fun k => Classical.choose_spec (targetsLoops_node ei h k) }⟩

end Cert.Gcn

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.ReadKernelAct.lean ====
/-
  The kernel program's activations read at an entry: the sum over the edges and self-loops whose target is the entry's
  node, of the source's scaled product row, times the node's factor, plus the bias, clipped at zero.
-/
import proofs.«417841_j61658550502079_3_alg».proof.Proof.ClosedForm
import proofs.«417841_j61658550502079_3_alg».proof.Proof.LibScatterRead
import Idealize.ShloMosaic.Lib.Pipeline.Value
import Idealize.ShloMosaic.Lib.ValueIdx
import Idealize.ShloMosaic.Lib.ValueLayout
import Idealize.ShloMosaic.Lib.StableHlo.Predicate

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

namespace KAct

/-- A vector [N] reshaped to a column [N, 1] reads, at (n, 0), the vector at n. -/
theorem factorCol_apply (ei : Edges) (n : Fin 50000) : factorCol ei (ix2 n 0) = factor ei n := by
  unfold factorCol factor
  exact shapeCast_apply _ _ _ _ (by
    rw [Shape.rowMajor_val_one, Shape.rowMajor_val_two]
    show n.val = n.val * 1 + 0
    omega)

/-- A vector laid out as a column reads, at (k, 0), the vector at k. -/
theorem colOf_apply {α : Type} {N : Nat} (h : (⟨1, ![N]⟩ : Shape).BroadcastsInDim ⟨2, ![N, 1]⟩ ![0])
    (v : (⟨1, ![N]⟩ : Shape).Idx → α) (k : Fin N) :
    broadcastInDim ⟨2, ![N, 1]⟩ ![0] h v (ix2 k 0) = v (ix1 k) :=
  broadcastInDim_apply _ _ _ _ _ (fun a => match a with
    | ⟨0, _⟩ => by
      show k.val = if N = 1 then 0 else k.val
      have := k.isLt
      split <;> omega)

/-- A vector copied along the rows of a rectangle reads, at (k, b), the vector at k. -/
theorem rowsOf_apply {α : Type} {N B : Nat} (h : (⟨1, ![N]⟩ : Shape).BroadcastsInDim ⟨2, ![N, B]⟩ ![0])
    (v : (⟨1, ![N]⟩ : Shape).Idx → α) (k : Fin N) (b : Fin B) :
    broadcastInDim ⟨2, ![N, B]⟩ ![0] h v (ix2 k b) = v (ix1 k) :=
  broadcastInDim_apply _ _ _ _ _ (fun a => match a with
    | ⟨0, _⟩ => by
      show k.val = if N = 1 then 0 else k.val
      have := k.isLt
      split <;> omega)

/-- "Move up by N if negative" leaves a nonnegative number alone. -/
theorem moved_apply {s : Shape} (idx z c : IVec s 32) (j : s.Idx) (hz : z j = 0#32) (h0 : 0 ≤ (idx j).toInt) :
    select (cmpi .slt idx z) (addi idx c) idx j = idx j := by
  show Scalar.select (IntOp.cmpi .slt (idx j) (z j)) (IntOp.addi (idx j) (c j)) (idx j) = idx j
  rw [hz]
  have hb : (idx j).slt 0#32 = false := by
    rw [Bool.eq_false_iff]
    intro hh
    rw [BitVec.slt_iff_toInt_lt] at hh
    have : (0#32 : BitVec 32).toInt = 0 := by decide
    omega
  have : IntOp.cmpi .slt (idx j) 0#32 = 0#1 := by
    show BitVec.ofBool ((idx j).slt 0#32) = 0#1
    rw [hb]; rfl
  rw [this]
  exact select_zero _ _

/-- The range test 0 ≤ v ≤ 49999 is true of a number in that range. -/
theorem rangeBits_apply {s : Shape} (col z m : IVec s 32) (j : s.Idx) (hz : z j = 0#32) (hm : m j = 49999#32)
    (h0 : 0 ≤ (col j).toInt) (h1 : (col j).toInt ≤ 49999) :
    andi (cmpi .sge col z) (cmpi .sle col m) j = 1#1 := by
  show IntOp.andi (IntOp.cmpi .sge (col j) (z j)) (IntOp.cmpi .sle (col j) (m j)) = 1#1
  rw [hz, hm]
  have ha : (0#32 : BitVec 32).sle (col j) = true := by
    rw [BitVec.sle_iff_toInt_le]
    have : (0#32 : BitVec 32).toInt = 0 := by decide
    omega
  have hb : (col j).sle 49999#32 = true := by
    rw [BitVec.sle_iff_toInt_le]
    have : (49999#32 : BitVec 32).toInt = 49999 := by decide
    omega
  have a : IntOp.cmpi .sge (col j) 0#32 = 1#1 := by
    show BitVec.ofBool ((0#32 : BitVec 32).sle (col j)) = 1#1
    rw [ha]; rfl
  have b : IntOp.cmpi .sle (col j) 49999#32 = 1#1 := by
    show BitVec.ofBool ((col j).sle 49999#32) = 1#1
    rw [hb]; rfl
  rw [a, b]; rfl

/-- A reduction by "and" from 1 whose every contributing entry is 1 is 1. -/
theorem reduce_andi_of_all {s t u : Shape} {axes : List (Fin s.rank)} (p : s.Idx → BitVec 1) (init : u.Idx → BitVec 1)
    (h : s.ReducesTo axes t) (hu : 0 < u.numel) (j : t.Idx) (hinit : init (Shape.Idx.first hu) = 1#1)
    (hp : ∀ i, h.drop i = j → p i = 1#1) : Host.reduce IntOp.andi p init h hu j = 1#1 := by
  rw [Host.reduce_eq_fold, hinit]
  have key : ∀ S : Finset s.Idx, (∀ i ∈ S, p i = 1#1) → S.fold IntOp.andi 1#1 p = 1#1 := by
    intro S
    induction S using Finset.cons_induction with
    | empty => intro _; rfl
    | cons a S ha ih =>
      intro hS
      rw [Finset.fold_cons, hS a (Finset.mem_cons_self a S), ih (fun i hi => hS i (Finset.mem_cons_of_mem hi))]
      rfl
  exact key _ (fun i hi => hp i (Finset.mem_filter.mp hi).2)

/-- Rows taken at in-range numbers: row k of the result is the row of `x` its number names. -/
theorem takeLoops_apply (x : FVec Ideal S50000x32 .f32) (idx : IVec S1650000 32) (k : Fin 1650000) (d : Fin 32)
    (n : Fin 50000) (hn : (idx (ix1 k)).toInt = (n.val : Int)) :
    takeLoops x idx (ix2 k d) = x (ix2 n d) := by
  have h0 : 0 ≤ (idx (ix1 k)).toInt := by rw [hn]; exact Int.natCast_nonneg _
  have h1 : (idx (ix1 k)).toInt ≤ 49999 := by rw [hn]; have := n.isLt; omega
  unfold takeLoops
  rw [select_apply, rowsOf_apply]
  rw [reduce_andi_of_all (j := ix1 k) (hinit := rfl) (hp := ?hp)]
  case hp =>
    intro i hi
    have hdrop := Shape.ReducesTo.drop_apply_val_of_eq
      Cert.KernelIdeal.Facts₀.reducesTo_S1650000x1_S1650000_d1 i 0 0
    have hk : (i 0 : Fin 1650000) = k :=
      Fin.ext (by rw [← hdrop]; exact congrArg Fin.val (congrFun hi 0))
    have hz : (i 1 : Fin 1) = (0 : Fin 1) := Subsingleton.elim (α := Fin 1) _ _
    have hi' : i = ix2 k 0 := (eq_ix2 i).trans (congrArg₂ ix2 hk hz)
    subst hi'
    refine rangeBits_apply _ _ _ _ rfl rfl ?_ ?_ <;> rw [colOf_apply, moved_apply _ _ _ _ rfl h0]
    exacts [h0, h1]
  rw [select_one]
  refine (Cert.SparseMM.gather_rows_apply (S := 50000) (B := 32) (N := 1650000) (by omega) _ x _ k d).trans ?_
  refine congrArg x (congrArg (fun a => ix2 a d) (Fin.ext ?_))
  show min _ (50000 - 1) = n.val
  rw [colOf_apply, moved_apply _ _ _ _ rfl h0, hn, Int.toNat_natCast]
  have := n.isLt
  omega

end KAct

open KAct

/-- Entry (i, d) of the kernel program's activations, in closed form. -/
theorem activations_apply {ei : Edges} (μ : NodeMaps ei) (X : FVec Ideal S50000x32 .f32) (W : FVec Ideal S32x32 .f32)
    (b : FVec Ideal S32 .f32) (i : Fin 50000) (d : Fin 32) :
    activations X ei W b (ix2 i d) = activationFactored μ X W b i d := by
  -- the sum the scatter leaves at (i, d)
  have hS : Host.scatterAdd Cert.KernelIdeal.scatter_S50000x32_S1650000x1_S1650000x32_1_0_0_1
      (broadcastInDim Cert.KernelIdeal.S50000x32 ![] Cert.KernelIdeal.Facts₀.bcast_S_S50000x32
        (constant (F := Ideal) Cert.KernelIdeal.S_ .f32 0x00000000#32))
      (broadcastInDim Cert.KernelIdeal.S1650000x1 ![0] Cert.KernelIdeal.Facts₀.bcast_S1650000_S1650000x1_0
        (val_main_v5 (F := Ideal) ei))
      (takeLoops (scaledProduct X W (factorCol ei)) (val_main_v6 (F := Ideal) ei)) (ix2 i d)
      = ∑ k ∈ Finset.univ.filter (fun k : Fin 1650000 => μ.row k = i),
          featTimesWeight X W (μ.col k) d * factor ei (μ.col k) := by
    refine (Cert.SparseMM.scatterAdd_rows_apply (R := 50000) (B := 32) (N := 1650000) _ _ _ _ i d).trans ?_
    show Ideal.ofBits .f32 0#32 + _ = _
    rw [Ideal.ofBits_zero_f32, zero_add]
    refine Finset.sum_congr (Finset.filter_congr fun k _ => ?_) fun k _ => ?_
    · rw [colOf_apply, μ.row_eq k]
      constructor
      · intro h
        exact Fin.ext (by exact_mod_cast h)
      · intro h
        rw [h]
    · rw [takeLoops_apply _ _ k d (μ.col k) (μ.col_eq k)]
      show (∑ j : Fin 32, X (ix2 (μ.col k) j) * W (ix2 j d)) * factorCol ei (ix2 (μ.col k) 0) = _
      rw [factorCol_apply]
      rfl
  unfold activations activationFactored scaledBiasRelu
  show max (_ * factorCol ei (ix2 i 0) + shapeCast _ b _ (ix2 0 d)) 0 = _
  rw [hS, factorCol_apply, shapeCast_a_1a_apply]

end Cert.Gcn

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«417841_j61658550502079_3_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.ReadRefAct.lean ====
/-
  The reference program's activations read at an entry: the sum over the edges and self-loops whose target is the
  entry's node, of the source's product row times both factors, plus the bias, clipped at zero.
-/
import proofs.«417841_j61658550502079_3_alg».proof.Proof.ClosedForm
import proofs.«417841_j61658550502079_3_alg».proof.Proof.LibScatterRead
import proofs.«417841_j61658550502079_3_alg».proof.Proof.LibScatterVec
import Idealize.ShloMosaic.Lib.Pipeline.Value
import Idealize.ShloMosaic.Lib.ValueIdx
import Idealize.ShloMosaic.Lib.ValueLayout

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

/-- A number that is not negative is left alone by "move up by N if negative". -/
theorem moved_eq (v : BitVec 32) (h : 0 ≤ v.toInt) :
    Scalar.select (IntOp.cmpi .slt v 0#32) (IntOp.addi v 50000#32) v = v := by
  unfold Scalar.select
  refine if_neg fun hc => ?_
  have h1 := IntOp.cmpi_slt.mp hc
  have h0 : (0#32 : BitVec 32).toInt = 0 := by decide
  omega

/-- A number that reads as node n clamps to n. -/
theorem clamp_node (v : BitVec 32) (n : Fin 50000) (h : v.toInt = (n.val : Int))
    (hp : min v.toInt.toNat (50000 - 1) < 50000) :
    (⟨min v.toInt.toNat (50000 - 1), hp⟩ : Fin 50000) = n := by
  apply Fin.ext
  show min v.toInt.toNat (50000 - 1) = n.val
  rw [h, Int.toNat_natCast]
  have := n.isLt
  omega

/-- A column's entry (k, 0) is the vector's entry k. -/
theorem colIdx20 (k : Fin 1650000) (z : Fin 1) : idx_main_v20 (ix2 k z) = ix1 k := by
  funext a; match a with | ⟨0, _⟩ => rfl
/-- The same for the second column of sources. -/
theorem colIdx27 (k : Fin 1650000) (z : Fin 1) : idx_main_v27 (ix2 k z) = ix1 k := by
  funext a; match a with | ⟨0, _⟩ => rfl
/-- The same for the moved targets' column. -/
theorem colIdx34 (k : Fin 1650000) (z : Fin 1) : idx_main_v34 (ix2 k z) = ix1 k := by
  funext a; match a with | ⟨0, _⟩ => rfl
/-- The same for the targets' column. -/
theorem colIdx41 (k : Fin 1650000) (z : Fin 1) : idx_main_v41 (ix2 k z) = ix1 k := by
  funext a; match a with | ⟨0, _⟩ => rfl

/-- The moved sources-with-loops, as a column, are the sources-with-loops. -/
theorem v20_at {ei : Edges} (μ : NodeMaps ei) (k : Fin 1650000) :
    val_main_v20 (F := Ideal) ei (ix2 k 0) = val_main_v6 (F := Ideal) ei (ix1 k) := by
  rw [val_main_v20_apply, colIdx20, val_main_v19_apply, val_main_v16_apply, val_main_v18_apply, val_main_v15_apply,
    val_main_v17_apply, val_main_c_apply, val_main_c_2_apply]
  exact moved_eq _ (by rw [μ.col_eq]; exact Int.natCast_nonneg _)

/-- The second copy of the moved sources-with-loops, as a column, likewise. -/
theorem v27_at {ei : Edges} (μ : NodeMaps ei) (k : Fin 1650000) :
    val_main_v27 (F := Ideal) ei (ix2 k 0) = val_main_v6 (F := Ideal) ei (ix1 k) := by
  rw [val_main_v27_apply, colIdx27, val_main_v26_apply, val_main_v23_apply, val_main_v25_apply, val_main_v22_apply,
    val_main_v24_apply, val_main_c_3_apply, val_main_c_4_apply]
  exact moved_eq _ (by rw [μ.col_eq]; exact Int.natCast_nonneg _)

/-- The moved targets-with-loops, as a column, are the targets-with-loops. -/
theorem v34_at {ei : Edges} (μ : NodeMaps ei) (k : Fin 1650000) :
    val_main_v34 (F := Ideal) ei (ix2 k 0) = val_main_v5 (F := Ideal) ei (ix1 k) := by
  rw [val_main_v34_apply, colIdx34, val_main_v33_apply, val_main_v30_apply, val_main_v32_apply, val_main_v29_apply,
    val_main_v31_apply, val_main_c_5_apply, val_main_c_6_apply]
  exact moved_eq _ (by rw [μ.row_eq]; exact Int.natCast_nonneg _)

/-- Entry (n, d) of the product of the features with the weights. -/
theorem v14_at (X : FVec Ideal S50000x32 .f32) (W : FVec Ideal S32x32 .f32) (n : Fin 50000) (d : Fin 32) :
    val_main_v14 (F := Ideal) X W (ix2 n d) = featTimesWeight X W n d := by
  rw [val_main_v14_apply]
  unfold featTimesWeight
  refine Finset.sum_congr rfl fun j _ => ?_
  have el : lidx_main_v14 (ix2 n d) j = ix2 n j := by
    funext a; match a with | ⟨0, _⟩ => rfl | ⟨1, _⟩ => rfl
  have er : ridx_main_v14 (ix2 n d) j = ix2 j d := by
    funext a; match a with | ⟨0, _⟩ => rfl | ⟨1, _⟩ => rfl
  rw [el, er]

/-- The row gather at (k, d): the product's row at the source of edge k. -/
theorem v21_at {ei : Edges} (μ : NodeMaps ei) (X : FVec Ideal S50000x32 .f32) (W : FVec Ideal S32x32 .f32)
    (k : Fin 1650000) (d : Fin 32) :
    val_main_v21 (F := Ideal) X ei W (ix2 k d) = featTimesWeight X W (μ.col k) d := by
  unfold val_main_v21
  refine (Cert.SparseMM.gather_rows_apply (S := 50000) (B := 32) (N := 1650000) (by decide)
    Cert.ReferenceIdeal.gather_S50000x32_S1650000x1_S1650000x32_1_0_n_n_0_1_132.wf
    (val_main_v14 (F := Ideal) X W) (val_main_v20 (F := Ideal) ei) k d).trans ?_
  rw [clamp_node _ (μ.col k) (by rw [v20_at μ, μ.col_eq])]
  exact v14_at X W (μ.col k) d

/-- The factor gathered at the source of edge k. -/
theorem v28_at {ei : Edges} (μ : NodeMaps ei) (k : Fin 1650000) :
    val_main_v28 (F := Ideal) ei (ix1 k) = factor ei (μ.col k) := by
  unfold val_main_v28
  refine (Cert.SparseVec.gather_vec_apply (S := 50000) (N := 1650000) (by decide)
    Cert.ReferenceIdeal.gather_S50000_S1650000x1_S1650000_n_0_n_n_0_1_1.wf
    (val_main_v13 (F := Ideal) ei) (val_main_v27 (F := Ideal) ei) k).trans ?_
  rw [clamp_node _ (μ.col k) (by rw [v27_at μ, μ.col_eq])]
  rfl

/-- The factor gathered at the target of edge k. -/
theorem v35_at {ei : Edges} (μ : NodeMaps ei) (k : Fin 1650000) :
    val_main_v35 (F := Ideal) ei (ix1 k) = factor ei (μ.row k) := by
  unfold val_main_v35
  refine (Cert.SparseVec.gather_vec_apply (S := 50000) (N := 1650000) (by decide)
    Cert.ReferenceIdeal.gather_S50000_S1650000x1_S1650000_n_0_n_n_0_1_1.wf
    (val_main_v13 (F := Ideal) ei) (val_main_v34 (F := Ideal) ei) k).trans ?_
  rw [clamp_node _ (μ.row k) (by rw [v34_at μ, μ.row_eq])]
  rfl

/-- A message: the product's row at the source times both factors. -/
theorem v39_at {ei : Edges} (μ : NodeMaps ei) (X : FVec Ideal S50000x32 .f32) (W : FVec Ideal S32x32 .f32)
    (k : Fin 1650000) (d : Fin 32) :
    val_main_v39 (F := Ideal) X ei W (ix2 k d)
      = featTimesWeight X W (μ.col k) d * (factor ei (μ.col k) * factor ei (μ.row k)) := by
  have e38 : idx_main_v37 (idx_main_v38 (ix2 k d)) = ix1 k := by
    funext a; match a with | ⟨0, _⟩ => rfl
  rw [val_main_v39_apply, val_main_v38_apply, val_main_v37_apply, e38, val_main_v36_apply, v21_at μ, v28_at μ, v35_at μ]
  rfl

/-- The accumulating scatter at (i, d): the messages of the edges and self-loops whose target is i, added up. -/
theorem v42_at {ei : Edges} (μ : NodeMaps ei) (X : FVec Ideal S50000x32 .f32) (W : FVec Ideal S32x32 .f32)
    (i : Fin 50000) (d : Fin 32) :
    val_main_v42 (F := Ideal) X ei W (ix2 i d)
      = ∑ k ∈ Finset.univ.filter (fun k : Fin 1650000 => μ.row k = i),
          featTimesWeight X W (μ.col k) d * (factor ei (μ.col k) * factor ei (μ.row k)) := by
  unfold val_main_v42
  refine (Cert.SparseMM.scatterAdd_rows_apply (R := 50000) (B := 32) (N := 1650000)
    Cert.ReferenceIdeal.scatter_S50000x32_S1650000x1_S1650000x32_1_0_0_1.wf
    (val_main_v40 (F := Ideal)) (val_main_v41 (F := Ideal) ei) (val_main_v39 (F := Ideal) X ei W) i d).trans ?_
  rw [val_main_v40_apply, val_main_cst_7_apply, Ideal.ofBits_def, Ideal.ofBits_zero_f32, zero_add]
  refine Finset.sum_congr (Finset.filter_congr fun k _ => ?_) fun k _ => v39_at μ X W k d
  rw [val_main_v41_apply, colIdx41, μ.row_eq]
  exact ⟨fun h => Fin.ext (by exact_mod_cast h), fun h => by rw [h]⟩

/-- Entry (i, d) of the reference program's activations, in closed form. -/
theorem ref_activations_apply {ei : Edges} (μ : NodeMaps ei) (X : FVec Ideal S50000x32 .f32) (W : FVec Ideal S32x32 .f32)
    (b : FVec Ideal S32 .f32) (i : Fin 50000) (d : Fin 32) :
    val_main_v46 (F := Ideal) X ei W b (ix2 i d) = activationTermwise μ X W b i d := by
  have eb : idx_main_v43 (idx_main_v44 (ix2 i d)) = ix1 d := by
    funext a; match a with | ⟨0, _⟩ => rfl
  rw [val_main_v46_apply, val_main_v45_apply, val_main_call0_v0_apply, val_main_call0_cst_apply, val_main_v44_apply,
    val_main_v43_apply, eb, v42_at μ, Ideal.ofBits_def, Ideal.ofBits_zero_f32]
  rfl

end Cert.Gcn

end
-- ==== Proof.ReadKernelStat.lean ====
/-
  The kernel program's final statistic read at an entry, for any activations: the squared differences of the rows at
  both ends of the edges leaving the entry's node, added up, over the number of those edges (at least one), under tanh.
-/
import proofs.«417841_j61658550502079_3_alg».proof.Proof.ClosedForm
import proofs.«417841_j61658550502079_3_alg».proof.Proof.LibScatterRead
import proofs.«417841_j61658550502079_3_alg».proof.Proof.LibScatterVec
import Idealize.ShloMosaic.Lib.Pipeline.Value
import Idealize.ShloMosaic.Lib.ValueIdx
import Idealize.ShloMosaic.Lib.ValueLayout
import Idealize.ShloMosaic.Lib.StableHlo.Predicate

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

namespace KernelStat

/-- A left fold by `and` from the bit 1 over one-bit words that are all 1 is 1. -/
theorem foldl_andi_ones {ι : Type} (f : ι → BitVec 1) (l : List ι) (hl : ∀ n ∈ l, f n = 1#1) :
    l.foldl (fun r n => IntOp.andi r (f n)) 1#1 = 1#1 := by
  induction l with
  | nil => rfl
  | cons a l ih =>
    rw [List.foldl_cons, hl a (List.mem_cons_self ..)]
    exact ih (fun n hn => hl n (List.mem_cons_of_mem _ hn))

/-- The reduction by `and` of a column [E, 1] over its axis of size one, from the bit 1, is 1 at row k when the
    column's entry (k, 0) is. -/
theorem reduce_andi_col (p : IVec (⟨2, ![1600000, 1]⟩ : Shape) 1) (init : IVec (⟨0, ![]⟩ : Shape) 1)
    (h : (⟨2, ![1600000, 1]⟩ : Shape).ReducesTo [1] ⟨1, ![1600000]⟩) (hu : 0 < (⟨0, ![]⟩ : Shape).numel)
    (hinit : init (Shape.Idx.first hu) = 1#1) (k : Fin 1600000) (hp : p (ix2 k 0) = 1#1) :
    Host.reduce IntOp.andi p init h hu (ix1 k) = 1#1 := by
  rw [Host.reduce_eq_foldl, hinit]
  refine foldl_andi_ones p _ (fun i hi => ?_)
  have hd : h.drop i = ix1 k := by simpa using (List.mem_filter.mp hi).2
  have h0 : (i 0 : Fin 1600000) = k := by
    apply Fin.ext
    have e := Shape.ReducesTo.drop_apply_val_of_eq h i 0 0
    rw [hd] at e
    exact e.symm
  have h1 : @Eq (Fin 1) (i 1) 0 := Subsingleton.elim (α := Fin 1) _ _
  rw [eq_ix2 i, h0, h1]
  exact hp

section Take
open Cert.KernelIdeal.Facts₀

/-- A row of `x` taken at an edge whose node number is `n`, in range: the junk case does not arise, the number is
    not moved, and the clamped row is `n`. -/
theorem takeEdges_apply (x : FVec Ideal S50000x32 .f32) (idx : IVec S1600000 32) (k : Fin 1600000) (n : Fin 50000)
    (hn : (idx (ix1 k)).toInt = (n.val : Int)) (d : Fin 32) :
    takeEdges x idx (ix2 k d) = x (ix2 n d) := by
  have hnlt := n.isLt
  -- the number is not negative, so it is not moved up
  have hmoved : select (cmpi .slt idx (broadcastInDim KernelIdeal.S1600000 ![] bcast_S_S1600000 (constantI KernelIdeal.S_ 32 0#32)))
      (addi idx (broadcastInDim KernelIdeal.S1600000 ![] bcast_S_S1600000 (constantI KernelIdeal.S_ 32 50000#32))) idx (ix1 k)
      = idx (ix1 k) := by
    show Scalar.select (IntOp.cmpi .slt (idx (ix1 k)) 0#32) _ (idx (ix1 k)) = idx (ix1 k)
    have hc : IntOp.cmpi .slt (idx (ix1 k)) 0#32 = 0#1 := by
      refine eq_zero_of_ne_one (fun hc => ?_)
      have := IntOp.cmpi_slt.mp hc
      rw [hn] at this
      simp at this
      omega
    rw [hc, select_zero]
  unfold takeEdges
  generalize select (cmpi .slt idx (broadcastInDim KernelIdeal.S1600000 ![] bcast_S_S1600000 (constantI KernelIdeal.S_ 32 0#32)))
      (addi idx (broadcastInDim KernelIdeal.S1600000 ![] bcast_S_S1600000 (constantI KernelIdeal.S_ 32 50000#32))) idx = moved at hmoved ⊢
  -- the column of the numbers reads the number at (k, 0)
  have hcol : broadcastInDim KernelIdeal.S1600000x1 ![0] bcast_S1600000_S1600000x1_0 moved (ix2 k 0) = idx (ix1 k) :=
    (broadcastInDim_apply ![0] bcast_S1600000_S1600000x1_0 moved (ix2 k 0) (ix1 k)
      (fun a => match a with | ⟨0, _⟩ => rfl)).trans hmoved
  generalize broadcastInDim KernelIdeal.S1600000x1 ![0] bcast_S1600000_S1600000x1_0 moved = col at hcol ⊢
  have hcolInt : (col (ix2 k 0)).toInt = (n.val : Int) := by rw [hcol, hn]
  -- both range tests hold at (k, 0), so the mask is 1 at row k
  have hok : Host.reduce IntOp.andi
      (andi (cmpi .sge col (broadcastInDim KernelIdeal.S1600000x1 ![] bcast_S_S1600000x1 (constantI KernelIdeal.S_ 32 0#32)))
        (cmpi .sle col (broadcastInDim KernelIdeal.S1600000x1 ![0, 1] bcast_S1x1_S1600000x1_0_1
          (broadcastInDim KernelIdeal.S1x1 ![1] bcast_S1_S1x1_1 (constantI KernelIdeal.S1 32 49999#32)))))
      (constantI KernelIdeal.S_ 1 1#1) reducesTo_S1600000x1_S1600000_d1 h_S_ (ix1 k) = 1#1 := by
    refine reduce_andi_col _ _ _ _ rfl k ?_
    show IntOp.andi (IntOp.cmpi .sge (col (ix2 k 0)) 0#32) (IntOp.cmpi .sle (col (ix2 k 0)) 49999#32) = 1#1
    rw [IntOp.andi_eq_one, IntOp.cmpi_sge, IntOp.cmpi_sle, hcolInt]
    constructor
    · simp
    · have : (49999#32 : BitVec 32).toInt = 49999 := by decide
      rw [this]; omega
  rw [select_apply,
    broadcastInDim_apply ![0] bcast_S1600000_S1600000x32_0 _ (ix2 k d) (ix1 k) (fun a => match a with | ⟨0, _⟩ => rfl),
    hok, select_one]
  -- the gathered row is the clamped number's, and the clamp leaves n alone
  refine (Cert.SparseMM.gather_rows_apply (by decide) gather_S50000x32_S1600000x1_S1600000x32_1_0_n_n_0_1_132_wf
    x col k d).trans ?_
  refine congrArg (fun r : Fin 50000 => x (ix2 r d)) (Fin.ext ?_)
  show min (col (ix2 k 0)).toInt.toNat (50000 - 1) = n.val
  rw [hcolInt, Int.toNat_natCast]
  omega

end Take

section Assemble
open Cert.KernelIdeal.Facts₀

/-- The squared differences, computed 128 to a row and laid back 32 to a row: the two reshapes are inverse to each
    other and the squaring is entry by entry, so entry j is the square of the difference of the entries j. -/
theorem squaredRows_apply (A B : FVec Ideal KernelIdeal.S1600000x32 .f32) (j : KernelIdeal.S1600000x32.Idx) :
    shapeCast KernelIdeal.S1600000x32
        (squaredDiff (shapeCast KernelIdeal.S400000x128 A shapeCasts_S1600000x32_S400000x128)
          (shapeCast KernelIdeal.S400000x128 B shapeCasts_S1600000x32_S400000x128))
        shapeCasts_S400000x128_S1600000x32 j
      = (A j - B j) * (A j - B j) := by
  have hA := congrFun (shapeCast_shapeCast A shapeCasts_S1600000x32_S400000x128 shapeCasts_S400000x128_S1600000x32) j
  have hB := congrFun (shapeCast_shapeCast B shapeCasts_S1600000x32_S400000x128 shapeCasts_S400000x128_S1600000x32) j
  show (shapeCast KernelIdeal.S1600000x32 (shapeCast KernelIdeal.S400000x128 A shapeCasts_S1600000x32_S400000x128)
          shapeCasts_S400000x128_S1600000x32 j
        - shapeCast KernelIdeal.S1600000x32 (shapeCast KernelIdeal.S400000x128 B shapeCasts_S1600000x32_S400000x128)
          shapeCasts_S400000x128_S1600000x32 j)
      * (shapeCast KernelIdeal.S1600000x32 (shapeCast KernelIdeal.S400000x128 A shapeCasts_S1600000x32_S400000x128)
          shapeCasts_S400000x128_S1600000x32 j
        - shapeCast KernelIdeal.S1600000x32 (shapeCast KernelIdeal.S400000x128 B shapeCasts_S1600000x32_S400000x128)
          shapeCasts_S400000x128_S1600000x32 j) = _
  rw [hA, hB]

/-- The column of the source numbers names, at edge k, the node `μ.src k`: the scatters' filter is "the source is i". -/
theorem srcCol_eq_iff {ei : Edges} (μ : NodeMaps ei) (k : Fin 1600000) (i : Fin 50000) :
    (broadcastInDim KernelIdeal.S1600000x1 ![0] bcast_S1600000_S1600000x1_0 (val_main_v1 (F := Ideal) ei) (ix2 k 0)).toInt
        = (i.val : Int) ↔ μ.src k = i := by
  rw [broadcastInDim_apply ![0] bcast_S1600000_S1600000x1_0 _ (ix2 k 0) (ix1 k) (fun a => match a with | ⟨0, _⟩ => rfl),
    μ.src_eq k]
  exact ⟨fun e => Fin.ext (Nat.cast_injective e), fun e => by rw [e]⟩

/-- The summed rows at (i, d): the squared differences over the edges leaving node i. -/
theorem edgeSum_apply {ei : Edges} (μ : NodeMaps ei) (h : FVec Ideal S50000x32 .f32) (i : Fin 50000) (d : Fin 32) :
    Host.scatterAdd KernelIdeal.scatter_S50000x32_S1600000x1_S1600000x32_1_0_0_1
        (broadcastInDim KernelIdeal.S50000x32 ![] bcast_S_S50000x32 (constant (F := Ideal) KernelIdeal.S_ .f32 0x00000000#32))
        (broadcastInDim KernelIdeal.S1600000x1 ![0] bcast_S1600000_S1600000x1_0 (val_main_v1 (F := Ideal) ei))
        (shapeCast KernelIdeal.S1600000x32
          (squaredDiff
            (shapeCast KernelIdeal.S400000x128 (takeEdges h (val_main_v1 (F := Ideal) ei)) shapeCasts_S1600000x32_S400000x128)
            (shapeCast KernelIdeal.S400000x128 (takeEdges h (val_main_v3 (F := Ideal) ei)) shapeCasts_S1600000x32_S400000x128))
          shapeCasts_S400000x128_S1600000x32) (ix2 i d)
      = ∑ k ∈ Finset.univ.filter (fun k : Fin 1600000 => μ.src k = i),
          (h (ix2 (μ.src k) d) - h (ix2 (μ.dst k) d)) * (h (ix2 (μ.src k) d) - h (ix2 (μ.dst k) d)) := by
  refine (Cert.SparseMM.scatterAdd_rows_apply (wf := scatter_S50000x32_S1600000x1_S1600000x32_1_0_0_1_wf) _ _ _ i d).trans ?_
  have h0 : broadcastInDim KernelIdeal.S50000x32 ![] bcast_S_S50000x32
      (constant (F := Ideal) KernelIdeal.S_ .f32 0x00000000#32) (ix2 i d) = 0 := Ideal.ofBits_zero_f32
  rw [h0, zero_add]
  refine Finset.sum_congr (Finset.filter_congr (fun k _ => srcCol_eq_iff μ k i)) (fun k _ => ?_)
  rw [squaredRows_apply, takeEdges_apply h _ k (μ.src k) (μ.src_eq k) d, takeEdges_apply h _ k (μ.dst k) (μ.dst_eq k) d]

/-- The count column at (i, 0): the number of edges leaving node i. -/
theorem edgeCount_apply {ei : Edges} (μ : NodeMaps ei) (i : Fin 50000) :
    shapeCast KernelIdeal.S50000x1
        (Host.scatterAdd KernelIdeal.scatter_S50000_S1600000x1_S1600000_n_0_0_1
          (broadcastInDim KernelIdeal.S50000 ![] bcast_S_S50000 (constant (F := Ideal) KernelIdeal.S_ .f32 0x00000000#32))
          (broadcastInDim KernelIdeal.S1600000x1 ![0] bcast_S1600000_S1600000x1_0 (val_main_v1 (F := Ideal) ei))
          (broadcastInDim KernelIdeal.S1600000 ![] bcast_S_S1600000 (constant (F := Ideal) KernelIdeal.S_ .f32 0x3F800000#32)))
        shapeCasts_S50000_S50000x1 (ix2 i 0)
      = outCount μ i := by
  refine (shapeCast_apply _ shapeCasts_S50000_S50000x1 (ix2 i 0) (ix1 i) (by
    rw [Shape.rowMajor_val_one, Shape.rowMajor_val_two]
    show i.val = i.val * 1 + 0
    omega)).trans ?_
  refine (Cert.SparseVec.scatterAdd_vec_apply scatter_S50000_S1600000x1_S1600000_n_0_0_1_wf _ _ _ i).trans ?_
  have h0 : broadcastInDim KernelIdeal.S50000 ![] bcast_S_S50000
      (constant (F := Ideal) KernelIdeal.S_ .f32 0x00000000#32) (ix1 i) = 0 := Ideal.ofBits_zero_f32
  rw [h0, zero_add]
  unfold outCount
  exact Finset.sum_congr (Finset.filter_congr (fun k _ => srcCol_eq_iff μ k i))
    (fun k _ => IdealRules.sign_bit.ideal_onePat .f32)

end Assemble

/-- The last stage read at (i, d). -/
theorem meanTanh_apply (s : FVec Ideal SNxD .f32) (c : FVec Ideal SNx1 .f32) (i : Fin 50000) (d : Fin 32) :
    meanTanh s c (ix2 i d) = Ideal.tanh (Ideal.div (s (ix2 i d)) (max (c (ix2 i 0)) 1)) := rfl

end KernelStat

open KernelStat

/-- Entry (i, d) of the kernel program's statistic of activations `h`, in closed form. -/
theorem edgeStatistic_apply {ei : Edges} (μ : NodeMaps ei) (h : FVec Ideal S50000x32 .f32) (i : Fin 50000) (d : Fin 32) :
    edgeStatistic h (val_main_v1 (F := Ideal) ei) (val_main_v3 (F := Ideal) ei) (ix2 i d)
      = statisticWith μ (fun x => x * x) h i d := by
  unfold edgeStatistic
  -- the quotient's numerator is the summed rows at (i, d), its denominator the larger of the count at (i, 0) and 1
  rw [meanTanh_apply, edgeSum_apply μ h i d, edgeCount_apply μ i]
  rfl

end Cert.Gcn

end
-- ==== Proof.ReadRefStat.lean ====
/-
  The reference program's result read at an entry: the absolute differences of its activations' rows at both ends of
  the edges leaving the entry's node, raised to the power two, added up, over the number of those edges (at least
  one), under tanh.
-/
import proofs.«417841_j61658550502079_3_alg».proof.Proof.ClosedForm
import proofs.«417841_j61658550502079_3_alg».proof.Proof.LibScatterRead
import proofs.«417841_j61658550502079_3_alg».proof.Proof.LibScatterVec
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

namespace RefStat

/-! ## The node numbers of an edge, as the reference program's second half reads them -/

/-- "Move the number up by N if it is negative" leaves a number that is not negative as it is. -/
theorem moved_of_nonneg (v a : BitVec 32) (h : 0 ≤ v.toInt) :
    Scalar.select (IntOp.cmpi .slt v 0#32) a v = v := by
  have hlt : v.slt 0#32 = false := by
    simp only [BitVec.slt, BitVec.toInt_zero, decide_eq_false_iff_not, Int.not_lt]
    exact h
  show (if BitVec.ofBool (v.slt 0#32) = 1 then _ else _) = _
  rw [hlt]
  rfl

/-- Edge k's source, sliced a second time from the edge list, is the same word as the first time: node `μ.src k`. -/
theorem src_word {ei : Edges} (μ : NodeMaps ei) (k : Fin 1600000) :
    (val_main_v48 (F := Ideal) ei (ix1 k)).toInt = ((μ.src k).val : Int) := μ.src_eq k

/-- Likewise edge k's target: node `μ.dst k`. -/
theorem dst_word {ei : Edges} (μ : NodeMaps ei) (k : Fin 1600000) :
    (val_main_v50 (F := Ideal) ei (ix1 k)).toInt = ((μ.dst k).val : Int) := μ.dst_eq k

/-- Edge k's source word names node i exactly when `μ.src k` is i. -/
theorem src_eq_iff {ei : Edges} (μ : NodeMaps ei) (k : Fin 1600000) (i : Fin 50000) :
    (val_main_v48 (F := Ideal) ei (ix1 k)).toInt = (i.val : Int) ↔ μ.src k = i := by
  rw [src_word μ k]
  constructor
  · intro h
    exact Fin.ext (by exact_mod_cast h)
  · intro h
    rw [h]

/-- Row k of the column of moved sources: a node number is not negative, so it is not moved. -/
theorem movedSrc_toInt {ei : Edges} (μ : NodeMaps ei) (k : Fin 1600000) :
    (val_main_v56 (F := Ideal) ei (ix2 k 0)).toInt = ((μ.src k).val : Int) := by
  have hk : idx_main_v56 (ix2 k 0) = ix1 k := by
    funext a; match a with | ⟨0, _⟩ => rfl
  rw [val_main_v56_apply, hk, val_main_v55_apply, val_main_v52_apply, val_main_v51_apply, val_main_c_8_apply,
    moved_of_nonneg _ _ (by rw [src_word μ k]; exact Int.natCast_nonneg _)]
  exact src_word μ k

/-- Row k of the column of moved targets, likewise. -/
theorem movedDst_toInt {ei : Edges} (μ : NodeMaps ei) (k : Fin 1600000) :
    (val_main_v63 (F := Ideal) ei (ix2 k 0)).toInt = ((μ.dst k).val : Int) := by
  have hk : idx_main_v63 (ix2 k 0) = ix1 k := by
    funext a; match a with | ⟨0, _⟩ => rfl
  rw [val_main_v63_apply, hk, val_main_v62_apply, val_main_v59_apply, val_main_v58_apply, val_main_c_10_apply,
    moved_of_nonneg _ _ (by rw [dst_word μ k]; exact Int.natCast_nonneg _)]
  exact dst_word μ k

/-- The column the sum's scatter reads its row numbers from has the source of edge k in row k. -/
theorem idx70 (k : Fin 1600000) : idx_main_v70 (ix2 k 0) = ix1 k := by
  funext a; match a with | ⟨0, _⟩ => rfl

/-- So has the column the count's scatter reads. -/
theorem idx74 (k : Fin 1600000) : idx_main_v74 (ix2 k 0) = ix1 k := by
  funext a; match a with | ⟨0, _⟩ => rfl

/-- The divisor, spread over a row, is read at the row's node. -/
theorem idx79 (i : Fin 50000) (d : Fin 32) : idx_main_v78 (idx_main_v79 (ix2 i d)) = ix1 i := by
  funext a; match a with | ⟨0, _⟩ => rfl

/-! ## The gathers, the count and the sum -/

/-- A row gather from N = 50000 rows at a column whose row k holds node n's number reads row n: the number lies in
    0 … N - 1, so the clamp into that range does nothing. -/
theorem gather_at_node (h : FVec Ideal S50000x32 .f32) (idx : IVec Cert.ReferenceIdeal.S1600000x1 32)
    (k : Fin 1600000) (d : Fin 32) (n : Fin 50000) (hn : (idx (ix2 k 0)).toInt = (n.val : Int)) :
    Host.gather Cert.ReferenceIdeal.gather_S50000x32_S1600000x1_S1600000x32_1_0_n_n_0_1_132 h idx (ix2 k d)
      = h (ix2 n d) := by
  refine (Cert.SparseMM.gather_rows_apply (S := 50000) (B := 32) (N := 1600000) (by decide)
    Cert.ReferenceIdeal.Facts₀.gather_S50000x32_S1600000x1_S1600000x32_1_0_n_n_0_1_132_wf h idx k d).trans ?_
  congr 2
  refine Fin.ext ?_
  show min (idx (ix2 k 0)).toInt.toNat (50000 - 1) = n.val
  rw [hn, Int.toNat_natCast]
  have := n.isLt
  omega

/-- The reference's count at node i: a one added to zero for every edge whose source is i. -/
theorem count_apply {ei : Edges} (μ : NodeMaps ei) (i : Fin 50000) :
    val_main_v75 (F := Ideal) ei (ix1 i) = outCount μ i := by
  unfold val_main_v75
  refine (Cert.SparseVec.scatterAdd_vec_apply (R := 50000) (N := 1600000)
    Cert.ReferenceIdeal.Facts₀.scatter_S50000_S1600000x1_S1600000_n_0_0_1_wf _ _ _ i).trans ?_
  rw [val_main_v73_apply, val_main_cst_15_apply]
  show Ideal.ofBits .f32 0x00000000#32 + _ = _
  rw [Ideal.ofBits_zero_f32, zero_add]
  unfold outCount
  refine Finset.sum_congr (Finset.filter_congr fun k _ => ?_) (fun k _ => ?_)
  · rw [val_main_v74_apply, idx74 k]
    exact src_eq_iff μ k i
  · rw [val_main_v72_apply, val_main_cst_14_apply]
    exact Ideal.ofBits_one_f32

/-- The reference's sum at (i, d): over the edges whose source is i, the absolute difference of the activations'
    entries d at the edge's two ends, to the power two. -/
theorem sum_apply {ei : Edges} (μ : NodeMaps ei) (X : FVec Ideal S50000x32 .f32) (W : FVec Ideal S32x32 .f32)
    (b : FVec Ideal S32 .f32) (i : Fin 50000) (d : Fin 32) :
    val_main_v71 (F := Ideal) X ei W b (ix2 i d)
      = ∑ k ∈ Finset.univ.filter (fun k : Fin 1600000 => μ.src k = i),
          (fun x => Ideal.pow (max x (-x)) (Ideal.ofBits .f32 0x40000000#32))
            (val_main_v46 (F := Ideal) X ei W b (ix2 (μ.src k) d)
              - val_main_v46 (F := Ideal) X ei W b (ix2 (μ.dst k) d)) := by
  unfold val_main_v71
  refine (Cert.SparseMM.scatterAdd_rows_apply (R := 50000) (B := 32) (N := 1600000)
    Cert.ReferenceIdeal.Facts₀.scatter_S50000x32_S1600000x1_S1600000x32_1_0_0_1_wf _ _ _ i d).trans ?_
  rw [val_main_v69_apply, val_main_cst_13_apply]
  show Ideal.ofBits .f32 0x00000000#32 + _ = _
  rw [Ideal.ofBits_zero_f32, zero_add]
  refine Finset.sum_congr (Finset.filter_congr fun k _ => ?_) (fun k _ => ?_)
  · rw [val_main_v70_apply, idx70 k]
    exact src_eq_iff μ k i
  · -- the update's entry (k, d): the power of the absolute value of the difference of the two gathered entries
    rw [val_main_v68_apply, val_main_v67_apply, val_main_cst_12_apply, val_main_v66_apply, val_main_v65_apply]
    unfold val_main_v57 val_main_v64
    rw [gather_at_node _ _ k d (μ.src k) (movedSrc_toInt μ k), gather_at_node _ _ k d (μ.dst k) (movedDst_toInt μ k)]
    rfl

end RefStat

open RefStat

/-- Entry (i, d) of the reference program's result, in closed form over its own activations. -/
theorem ref_statistic_apply {ei : Edges} (μ : NodeMaps ei) (X : FVec Ideal S50000x32 .f32) (W : FVec Ideal S32x32 .f32)
    (b : FVec Ideal S32 .f32) (i : Fin 50000) (d : Fin 32) :
    val_main_v81 (F := Ideal) X ei W b (ix2 i d)
      = statisticWith μ (fun x => Ideal.pow (max x (-x)) (Ideal.ofBits .f32 0x40000000#32))
          (val_main_v46 (F := Ideal) X ei W b) i d := by
  have one : FloatOps.ofBits (F := Ideal) .f32 0x3F800000#32 = (1 : EReal) := Ideal.ofBits_one_f32
  rw [val_main_v81_apply, val_main_v80_apply, val_main_v79_apply, val_main_v78_apply, idx79 i d, val_main_v77_apply,
    val_main_v76_apply, val_main_cst_16_apply, count_apply μ i, sum_apply μ X W b i d, one,
    Ideal.hostUnary_tanh_def, Ideal.hostDivf_def, Ideal.maximumf_def]
  unfold statisticWith
  rfl

end Cert.Gcn

end
-- ==== Proof.ReadFactor.lean ====
/-
  A node's normalisation factor is a real number: it is the reciprocal square root of the number of edges and
  self-loops arriving at the node, or of one if that is larger, and a count is a finite sum of ones.
-/
import proofs.«417841_j61658550502079_3_alg».proof.Proof.ClosedForm
import proofs.«417841_j61658550502079_3_alg».proof.Proof.LibScatterRead
import proofs.«417841_j61658550502079_3_alg».proof.Proof.LibScatterVec
import Idealize.ShloMosaic.Lib.Pipeline.Value
import Idealize.ShloMosaic.Lib.ValueIdx

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

namespace FactorRead

/-- The single-precision word 0x3F800000 denotes one. -/
theorem ofBits_one_word : Ideal.ofBits .f32 0x3F800000#32 = 1 := by
  simp [Ideal.ofBits, Ideal.ieee, -EReal.coe_mul]; norm_num

/-- A sum of ones over a finite set is the real number of its elements. -/
theorem sum_ones_eq_card {ι : Type} (S : Finset ι) : (∑ _k ∈ S, (1 : EReal)) = ((S.card : ℝ) : EReal) := by
  rw [Finset.sum_const, EReal.nsmul_eq_mul, mul_one]
  rfl

/-- The reciprocal square root of the larger of a count and one is real. -/
theorem rsqrt_max_card_real (c : ℕ) : ∃ r : ℝ, Ideal.rsqrt (max ((c : ℝ) : EReal) 1) = (r : EReal) := by
  have h1 : max ((c : ℝ) : EReal) 1 = ((max (c : ℝ) 1 : ℝ) : EReal) := by
    exact (EReal.coe_strictMono.monotone.map_max (a := (c : ℝ)) (b := 1)).symm
  have hpos : (0 : ℝ) < max (c : ℝ) 1 := lt_of_lt_of_le one_pos (le_max_right _ _)
  refine ⟨(Real.sqrt (max (c : ℝ) 1))⁻¹, ?_⟩
  rw [h1, Ideal.rsqrt_coe, if_neg (not_lt.2 hpos.le), if_neg hpos.ne']

/-- Every entry of the vector of ones is one. -/
theorem v7_apply_one (k : Fin 1650000) : val_main_v7 (F := Ideal) (ix1 k) = 1 := by
  rw [val_main_v7_apply, val_main_cst_apply, Ideal.ofBits_def]; exact ofBits_one_word

/-- Every entry of the vector of zeros is zero. -/
theorem v8_apply_zero (n : Fin 50000) : val_main_v8 (F := Ideal) (ix1 n) = 0 := by
  rw [val_main_v8_apply, val_main_cst_0_apply, Ideal.ofBits_def]; exact Ideal.ofBits_zero_f32

/-- Every entry of the lower bound of the counts is one. -/
theorem v11_apply_one (n : Fin 50000) : val_main_v11 (F := Ideal) (ix1 n) = 1 := by
  rw [val_main_v11_apply, val_main_cst_1_apply, Ideal.ofBits_def]; exact ofBits_one_word

/-- The count vector read at n: zero plus the sum of the ones at the entries of the targets column naming n. -/
theorem v10_apply (ei : Edges) (n : Fin 50000) :
    val_main_v10 (F := Ideal) ei (ix1 n) = val_main_v8 (F := Ideal) (ix1 n)
      + ∑ k ∈ Finset.univ.filter (fun k : Fin 1650000 =>
          (val_main_v9 (F := Ideal) ei (ix2 k 0)).toInt = (n.val : Int)), val_main_v7 (F := Ideal) (ix1 k) :=
  Cert.SparseVec.scatterAdd_vec_apply (R := 50000) (N := 1650000) _ (val_main_v8 (F := Ideal))
    (val_main_v9 (F := Ideal) ei) (val_main_v7 (F := Ideal)) n

/-- Node n's factor is the reciprocal square root of the larger of one and the number of entries of the targets
    (self-loops appended) that name n. -/
theorem factor_eq_count (ei : Edges) (n : Fin 50000) :
    factor ei n = Ideal.rsqrt (max (((Finset.univ.filter (fun k : Fin 1650000 =>
      (val_main_v9 (F := Ideal) ei (ix2 k 0)).toInt = (n.val : Int))).card : ℝ) : EReal) 1) := by
  unfold factor
  rw [val_main_v13_apply, val_main_v12_apply, v11_apply_one, v10_apply, v8_apply_zero, zero_add,
    Finset.sum_congr rfl (fun k _ => v7_apply_one k), sum_ones_eq_card, Ideal.hostUnary_rsqrt_def,
    Ideal.maximumf_def]

end FactorRead

/-- Every node's factor is real. -/
theorem factor_real {ei : Edges} (μ : NodeMaps ei) (n : Fin 50000) : ∃ r : ℝ, factor ei n = (r : EReal) := by
  rw [FactorRead.factor_eq_count]
  exact FactorRead.rsqrt_max_card_real _

end Cert.Gcn

end
-- ==== Proof.Algebra.lean ====
/-
  The laws on the extended reals that join the two programs. Distributing a factor over a sum fails at the infinities,
  so it is stated for real entries. The power two of an absolute value is the square, at every extended real.
-/
import Idealize.ShloMosaic.PureOps.Ideal

noncomputable section

open scoped BigOperators

namespace Cert.Gcn

open Idealize.ShloMosaic

/-- The coercion of a finite real sum is the sum of the coercions. -/
theorem coe_finset_sum {ι : Type} (S : Finset ι) (f : ι → ℝ) :
    ((∑ k ∈ S, f k : ℝ) : EReal) = ∑ k ∈ S, (f k : EReal) := by
  classical
  induction S using Finset.induction_on with
  | empty => simp
  | insert a s ha ih => rw [Finset.sum_insert ha, Finset.sum_insert ha, EReal.coe_add, ih]

/-- The float word 0x40000000 denotes the real two. -/
theorem ofBits_two : Ideal.ofBits .f32 0x40000000#32 = ((2 : ℝ) : EReal) := by
  simp [Ideal.ofBits, Ideal.ieee, -EReal.coe_mul]; norm_num

/-- A real factor moves inside a sum of products of reals. -/
theorem factored_eq_termwise {ι : Type} (S : Finset ι) (a u : ι → EReal) (v : EReal)
    (ha : ∀ k ∈ S, ∃ r : ℝ, a k = (r : EReal)) (hu : ∀ k ∈ S, ∃ r : ℝ, u k = (r : EReal)) (hv : ∃ r : ℝ, v = (r : EReal)) :
    (∑ k ∈ S, a k * u k) * v = ∑ k ∈ S, a k * (u k * v) := by
  classical
  obtain ⟨w, rfl⟩ := hv
  -- real witnesses of the entries, zero off the index set
  have ha' : ∀ k, ∃ r : ℝ, k ∈ S → a k = (r : EReal) := fun k => by
    by_cases hk : k ∈ S
    · obtain ⟨r, hr⟩ := ha k hk; exact ⟨r, fun _ => hr⟩
    · exact ⟨0, fun h => absurd h hk⟩
  have hu' : ∀ k, ∃ r : ℝ, k ∈ S → u k = (r : EReal) := fun k => by
    by_cases hk : k ∈ S
    · obtain ⟨r, hr⟩ := hu k hk; exact ⟨r, fun _ => hr⟩
    · exact ⟨0, fun h => absurd h hk⟩
  choose p hp using ha'
  choose q hq using hu'
  have h1 : ∑ k ∈ S, a k * u k = ((∑ k ∈ S, p k * q k : ℝ) : EReal) := by
    rw [coe_finset_sum]
    exact Finset.sum_congr rfl fun k hk => by rw [hp k hk, hq k hk, EReal.coe_mul]
  have h2 : ∑ k ∈ S, a k * (u k * (w : EReal)) = ((∑ k ∈ S, p k * (q k * w) : ℝ) : EReal) := by
    rw [coe_finset_sum]
    exact Finset.sum_congr rfl fun k hk => by rw [hp k hk, hq k hk, EReal.coe_mul, EReal.coe_mul]
  rw [h1, h2, ← EReal.coe_mul, Finset.sum_mul]
  exact congrArg _ (Finset.sum_congr rfl fun k _ => mul_assoc _ _ _)

/-- A dot product of real rows is real. -/
theorem dot_real (x y : Fin 32 → EReal) (hx : ∀ j, ∃ r : ℝ, x j = (r : EReal)) (hy : ∀ j, ∃ r : ℝ, y j = (r : EReal)) :
    ∃ r : ℝ, (∑ j : Fin 32, x j * y j) = (r : EReal) := by
  choose p hp using hx
  choose q hq using hy
  refine ⟨∑ j : Fin 32, p j * q j, ?_⟩
  rw [coe_finset_sum]
  exact Finset.sum_congr rfl fun j _ => by rw [hp j, hq j, EReal.coe_mul]

/-- The reciprocal square root of a count, or of one if that is larger, is real. -/
theorem rsqrt_count_real {ι : Type} (S : Finset ι) :
    ∃ r : ℝ, Ideal.rsqrt (max (∑ _k ∈ S, (1 : EReal)) 1) = (r : EReal) := by
  -- the sum of ones is the real number of elements
  have hsum : (∑ _k ∈ S, (1 : EReal)) = (((S.card : ℝ)) : EReal) := by
    have := coe_finset_sum S (fun _ => (1 : ℝ))
    simp only [EReal.coe_one] at this
    rw [← this]; simp
  have hmax : max (((S.card : ℝ)) : EReal) 1 = ((max (S.card : ℝ) 1 : ℝ) : EReal) := by
    rw [← EReal.coe_one]; exact (EReal.coe_strictMono.monotone.map_max).symm
  have hpos : (0 : ℝ) < max (S.card : ℝ) 1 := lt_of_lt_of_le one_pos (le_max_right _ _)
  refine ⟨(Real.sqrt (max (S.card : ℝ) 1))⁻¹, ?_⟩
  rw [hsum, hmax, Ideal.rsqrt_coe, if_neg (not_lt.mpr hpos.le), if_neg hpos.ne']

/-- The absolute value to the power two (the float 2.0) is the square, at every extended real. -/
theorem pow_abs_two (x : EReal) : Ideal.pow (max x (-x)) (Ideal.ofBits .f32 0x40000000#32) = x * x := by
  have h2 : (0 : EReal) < ((2 : ℝ) : EReal) := by exact_mod_cast (two_pos : (0 : ℝ) < 2)
  rw [ofBits_two]
  induction x using EReal.rec with
  | bot =>
    rw [EReal.neg_bot, max_eq_right bot_le, Ideal.pow_top, if_pos h2, EReal.bot_mul_bot]
  | coe r =>
    rw [← EReal.coe_neg, ← EReal.coe_strictMono.monotone.map_max, Ideal.pow_coe_coe, ← EReal.coe_mul]
    congr 1
    show (max r (-r)) ^ (2 : ℝ) = r * r
    rw [Real.rpow_two, ← abs_eq_max_neg, sq_abs, sq]
  | top =>
    rw [EReal.neg_top, max_eq_left bot_le, Ideal.pow_top, if_pos h2, EReal.top_mul_top]

end Cert.Gcn

end
-- ==== Proof.Bridge.lean ====
/-
  The two programs compute one function. With real features and weights and every node number in range:

  * the activations agree, because the target's normalisation factor is one real number for all the messages arriving
    at a node, so it may multiply each message (the reference) or their sum (the kernel);
  * the final statistic agrees for equal activations, because the power two of an absolute value is the square.
-/
import proofs.«417841_j61658550502079_3_alg».proof.Proof.ClosedForm
import proofs.«417841_j61658550502079_3_alg».proof.Proof.NodeMapsOf
import proofs.«417841_j61658550502079_3_alg».proof.Proof.ReadKernelAct
import proofs.«417841_j61658550502079_3_alg».proof.Proof.ReadRefAct
import proofs.«417841_j61658550502079_3_alg».proof.Proof.ReadKernelStat
import proofs.«417841_j61658550502079_3_alg».proof.Proof.ReadRefStat
import proofs.«417841_j61658550502079_3_alg».proof.Proof.ReadFactor
import proofs.«417841_j61658550502079_3_alg».proof.Proof.Algebra

noncomputable section

open scoped BigOperators

namespace Cert.Gcn

open Idealize.ShloMosaic Idealize.ShloMosaic.ValueIdx Cert.Gcn Cert.Gcn.KTerms
open Cert.ReferenceIdeal (S50000x32 S32x32 S32 S2x1600000 S1600000 S1650000 S50000)
open Cert.ReferenceIdeal.Read

/-- The kernel program's activations are the reference's, entry by entry. -/
theorem activations_eq_ref (X : FVec Ideal S50000x32 .f32) (ei : Edges) (W : FVec Ideal S32x32 .f32)
    (b : FVec Ideal S32 .f32) (hX : ∀ i, ∃ r : ℝ, X i = (r : EReal)) (hW : ∀ i, ∃ r : ℝ, W i = (r : EReal))
    (hr : InRange ei) :
    activations X ei W b = val_main_v46 (F := Ideal) X ei W b := by
  obtain ⟨μ⟩ := nodeMaps_of_inRange ei hr
  funext j
  obtain ⟨i, d, rfl⟩ : ∃ (i : Fin 50000) (d : Fin 32), j = ix2 i d := ⟨j 0, j 1, eq_ix2 j⟩
  rw [activations_apply μ, ref_activations_apply μ]
  unfold activationFactored activationTermwise
  -- the product entries and the factors are real
  have hprod : ∀ n : Fin 50000, ∃ r : ℝ, featTimesWeight X W n d = (r : EReal) := fun n =>
    dot_real (fun j => X (ix2 n j)) (fun j => W (ix2 j d)) (fun j => hX _) (fun j => hW _)
  -- the node's own factor moves inside the sum over the messages arriving at it
  rw [factored_eq_termwise _ (fun k => featTimesWeight X W (μ.col k) d) (fun k => factor ei (μ.col k)) (factor ei i)
    (fun k _ => hprod _) (fun k _ => factor_real μ _) (factor_real μ i)]
  refine congrArg (fun s => max (s + b (ix1 d)) (0 : EReal)) (Finset.sum_congr rfl fun k hk => ?_)
  rw [(Finset.mem_filter.mp hk).2]

/-- From the kernel program's activations, sources and targets, its final statistic is the reference's result. -/
theorem result_eq_ref (X : FVec Ideal S50000x32 .f32) (ei : Edges) (W : FVec Ideal S32x32 .f32)
    (b : FVec Ideal S32 .f32) (hX : ∀ i, ∃ r : ℝ, X i = (r : EReal)) (hW : ∀ i, ∃ r : ℝ, W i = (r : EReal))
    (hr : InRange ei) :
    edgeStatistic (activations X ei W b) (val_main_v1 (F := Ideal) ei) (val_main_v3 (F := Ideal) ei)
      = val_main_v81 (F := Ideal) X ei W b := by
  obtain ⟨μ⟩ := nodeMaps_of_inRange ei hr
  rw [activations_eq_ref X ei W b hX hW hr]
  funext j
  obtain ⟨i, d, rfl⟩ : ∃ (i : Fin 50000) (d : Fin 32), j = ix2 i d := ⟨j 0, j 1, eq_ix2 j⟩
  rw [edgeStatistic_apply μ, ref_statistic_apply μ]
  unfold statisticWith
  simp only [pow_abs_two]

end Cert.Gcn

end
-- ==== Proof.lean ====
/-
  A graph convolution layer followed by an edge statistic, on N = 50000 nodes with D = 32 features and E = 1600000
  edges: the kernel program (four dense stages in tiled kernels, the gathers and scatter-adds by node number between
  them on the host) against the plain reference, on the extended reals.

  Both programs build the degree-normalisation factors the same way. The reference gives each message (the source's
  product row) both endpoints' factors before adding the messages up by target; the kernel program scales the product
  rows by their own node's factor first, adds the gathered rows up by target, and multiplies the sum by the target's
  factor: equal because that factor is one real number for all the messages of a node (real features and weights give
  real products, and a count's reciprocal square root is real). After bias and relu, both take the rows at the two ends
  of every edge, square the differences (the reference as the power two of the absolute value), add them up by source,
  divide by the number of edges leaving the node, at least one, and apply tanh.

  The precondition: features, weights and bias finite, and every node number of the edge list in 0 … N - 1 (outside
  that range the reference's gathers clamp while the kernel's row takes answer a junk value, and the two results differ).

  The frames of the two kernel programs are the generated ones; the kernel program's run with its result named, the
  stages' whole-array values, the host chain between them, the reading of both programs to one closed form and the
  algebra are in the modules imported here.
-/
import proofs.«417841_j61658550502079_3_alg».proof.Defs
import proofs.«417841_j61658550502079_3_alg».proof.Proof.Gen.Kernel
import proofs.«417841_j61658550502079_3_alg».proof.Proof.Gen.Kernel.Skeleton
import proofs.«417841_j61658550502079_3_alg».proof.Proof.Gen.Kernel.Launch
import proofs.«417841_j61658550502079_3_alg».proof.Proof.Gen.Kernel.Points
import proofs.«417841_j61658550502079_3_alg».proof.Proof.Gen.Kernel.Frame
import proofs.«417841_j61658550502079_3_alg».proof.Proof.Gen.KernelIdeal
import proofs.«417841_j61658550502079_3_alg».proof.Proof.Gen.KernelIdeal.Skeleton
import proofs.«417841_j61658550502079_3_alg».proof.Proof.Gen.KernelIdeal.Launch
import proofs.«417841_j61658550502079_3_alg».proof.Proof.Gen.KernelIdeal.Points
import proofs.«417841_j61658550502079_3_alg».proof.Proof.Gen.KernelIdeal.Frame
import proofs.«417841_j61658550502079_3_alg».proof.Proof.Gen.ReferenceIdeal
import proofs.«417841_j61658550502079_3_alg».proof.Proof.Gen.Pre_finite_inputs
import proofs.«417841_j61658550502079_3_alg».proof.Proof.Gen.ReferenceIdeal.Run
import proofs.«417841_j61658550502079_3_alg».proof.Proof.Gen.ReferenceIdeal.Read
import proofs.«417841_j61658550502079_3_alg».proof.Proof.KernelRun
import proofs.«417841_j61658550502079_3_alg».proof.Proof.KernelChainA
import proofs.«417841_j61658550502079_3_alg».proof.Proof.KernelChainB
import proofs.«417841_j61658550502079_3_alg».proof.Proof.PreFacts
import proofs.«417841_j61658550502079_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the kernel program's result array, at its last boundary, is the reference's result term of
    the same arguments: the host chain names it `edgeStatistic` of `activations`, which is that term. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W11 m ρ c (Proc.devRef .tc Cert.KernelIdeal.main_v36)
      = Cert.ReferenceIdeal.Read.val_main_v81 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨hX, hW, -, hr⟩ := Cert.Gcn.of_pre _ _ _ _ (hpre c)
  rw [Cert.Gcn.ChainB.result_eq, Cert.Gcn.ChainA.activations_eq, Cert.Gcn.ChainA.src_kept, Cert.Gcn.ChainA.dst_kept]
  exact Cert.Gcn.result_eq_ref _ _ _ _ hX hW hr

theorem algebraic : Cert.algebraic_KernelIdeal_ReferenceIdeal := by
  intro m ρ m' ρ' hpre hagree
  refine ⟨fun c => Cert.ReferenceIdeal.Read.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (kernel_result m ρ hpre c), (h c).2⟩)
      (Cert.Gcn.KernelRun.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v81_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
